-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x128 : Shape := ⟨3, ![8, 2048, 128]⟩
abbrev S8x2x128x1 : Shape := ⟨4, ![8, 2, 128, 1]⟩
abbrev S_ : Shape := ⟨0, ![]⟩
abbrev S8x2048 : Shape := ⟨2, ![8, 2048]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8x2x128x1 : S_.BroadcastsInDim S8x2x128x1 (![] : Fin 0 → Fin S8x2x128x1.rank)
  reducesTo_S8x2x128x1_S_d0_1_2_3 : S8x2x128x1.ReducesTo [0, 1, 2, 3] S_
  reducesTo_S8x2048x2048_S8x2048_d2 : S8x2048x2048.ReducesTo [2] S8x2048
  reducesTo_S8x2048_S_d0_1 : S8x2048.ReducesTo [0, 1] S_

variable [Facts]

def fn_part2 {F : FTy → Type} [FloatOps F] (main_arg0 : FVec F S8x2048x2048 .f32) (main_arg1 : FVec F S8x2048x2048 .f32) (main_v32 : IVec S_ 1) (main_cst_12 : FVec F S_ .f32) : IVec S_ 1 :=
  let main_v33 : FVec F S8x2048x2048 .f32 := broadcastInDim S8x2048x2048 ![] bcast_S_S8x2048x2048 main_cst_12
  let main_v34 : IVec S8x2048x2048 1 := cmpf .une main_arg0 main_v33
  let main_c_13 : IVec S_ 1 := constantI S_ 1 0#1
  let main_v35 : IVec S8x2048 1 := (fun x v => Host.reduce IntOp.ori x v reducesTo_S8x2048x2048_S8x2048_d2 h_S_) main_v34 main_c_13
  let main_c_14 : IVec S_ 1 := constantI S_ 1 1#1
  let main_v36 : IVec S_ 1 := (fun x v => Host.reduce IntOp.andi x v reducesTo_S8x2048_S_d0_1 h_S_) main_v35 main_c_14
  let main_v37 : IVec S_ 1 := andi main_v32 main_v36
  let main_cst_15 : FVec F S_ .f32 := constant S_ .f32 0x00000000#32
  let main_v38 : FVec F S8x2048x2048 .f32 := broadcastInDim S8x2048x2048 ![] bcast_S_S8x2048x2048 main_cst_15
  let main_v39 : IVec S8x2048x2048 1 := cmpf .une main_arg1 main_v38
  let main_c_16 : IVec S_ 1 := constantI S_ 1 0#1
  let main_v40 : IVec S8x2048 1 := (fun x v => Host.reduce IntOp.ori x v reducesTo_S8x2048x2048_S8x2048_d2 h_S_) main_v39 main_c_16
  let main_c_17 : IVec S_ 1 := constantI S_ 1 1#1
  let main_v41 : IVec S_ 1 := (fun x v => Host.reduce IntOp.andi x v reducesTo_S8x2048_S_d0_1 h_S_) main_v40 main_c_17
  let main_v42 : IVec S_ 1 := andi main_v37 main_v41
  main_v42

def fn_part1 {F : FTy → Type} [FloatOps F] (main_arg0 : FVec F S8x2048x2048 .f32) (main_arg1 : FVec F S8x2048x2048 .f32) (main_v13 : IVec S_ 1) (main_v16 : IVec S8x2x128x1 1) : IVec S_ 1 :=
  let main_c_5 : IVec S_ 1 := constantI S_ 1 1#1
  let main_v17 : IVec S_ 1 := (fun x v => Host.reduce IntOp.andi x v reducesTo_S8x2x128x1_S_d0_1_2_3 h_S_) main_v16 main_c_5
  let main_v18 : IVec S_ 1 := andi main_v13 main_v17
  let main_cst_6 : FVec F S_ .f32 := constant S_ .f32 0x00000000#32
  let main_v19 : FVec F S8x2048x2048 .f32 := broadcastInDim S8x2048x2048 ![] bcast_S_S8x2048x2048 main_cst_6
  let main_v20 : IVec S8x2048x2048 1 := cmpf .oeq main_arg0 main_v19
  let main_cst_7 : FVec F S_ .f32 := constant S_ .f32 0x3F800000#32
  let main_v21 : FVec F S8x2048x2048 .f32 := broadcastInDim S8x2048x2048 ![] bcast_S_S8x2048x2048 main_cst_7
  let main_v22 : IVec S8x2048x2048 1 := cmpf .oeq main_arg0 main_v21
  let main_v23 : IVec S8x2048x2048 1 := ori main_v20 main_v22
  let main_c_8 : IVec S_ 1 := constantI S_ 1 1#1
  let main_v24 : IVec S_ 1 := (fun x v => Host.reduce IntOp.andi x v reducesTo_S8x2048x2048_S_d0_1_2 h_S_) main_v23 main_c_8
  let main_v25 : IVec S_ 1 := andi main_v18 main_v24
  let main_cst_9 : FVec F S_ .f32 := constant S_ .f32 0x00000000#32
  let main_v26 : FVec F S8x2048x2048 .f32 := broadcastInDim S8x2048x2048 ![] bcast_S_S8x2048x2048 main_cst_9
  let main_v27 : IVec S8x2048x2048 1 := cmpf .oeq main_arg1 main_v26
  let main_cst_10 : FVec F S_ .f32 := constant S_ .f32 0x3F800000#32
  let main_v28 : FVec F S8x2048x2048 .f32 := broadcastInDim S8x2048x2048 ![] bcast_S_S8x2048x2048 main_cst_10
  let main_v29 : IVec S8x2048x2048 1 := cmpf .oeq main_arg1 main_v28
  let main_v30 : IVec S8x2048x2048 1 := ori main_v27 main_v29
  let main_c_11 : IVec S_ 1 := constantI S_ 1 1#1
  let main_v31 : IVec S_ 1 := (fun x v => Host.reduce IntOp.andi x v reducesTo_S8x2048x2048_S_d0_1_2 h_S_) main_v30 main_c_11
  let main_v32 : IVec S_ 1 := andi main_v25 main_v31
  let main_cst_12 : FVec F S_ .f32 := constant S_ .f32 0x00000000#32
  fn_part2 (F := F) main_arg0 main_arg1 main_v32 main_cst_12

def fn {F : FTy → Type} [FloatOps F] (main_arg0 : FVec F S8x2048x2048 .f32) (main_arg1 : FVec F S8x2048x2048 .f32) (main_arg2 : FVec F S8x2048x128 .f32) (main_arg3 : FVec F S8x2x128x1 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  let main_v14 : FVec F S8x2x128x1 .f32 := Host.absf main_arg3
  let main_cst_4 : FVec F S_ .f32 := constant S_ .f32 0x7F800000#32
  let main_v15 : FVec F S8x2x128x1 .f32 := broadcastInDim S8x2x128x1 ![] bcast_S_S8x2x128x1 main_cst_4
  let main_v16 : IVec S8x2x128x1 1 := cmpf .olt main_v14 main_v15
  fn_part1 (F := F) main_arg0 main_arg1 main_v13 main_v16
-- ==== Kernel.lean ====
abbrev S8x2048x2048 : Shape := ⟨3, ![8, 2048, 2048]⟩
abbrev S8x2048x128 : Shape := ⟨3, ![8, 2048, 128]⟩
abbrev S8x2x128x1 : Shape := ⟨4, ![8, 2, 128, 1]⟩
abbrev S8x2x2048 : Shape := ⟨3, ![8, 2, 2048]⟩
abbrev S1x2048x128 : Shape := ⟨3, ![1, 2048, 128]⟩
abbrev S1x2x128x1 : Shape := ⟨4, ![1, 2, 128, 1]⟩
abbrev S1x2x2048 : Shape := ⟨3, ![1, 2, 2048]⟩
abbrev S2048x128 : Shape := ⟨2, ![2048, 128]⟩
abbrev S2x128 : Shape := ⟨2, ![2, 128]⟩
abbrev S2x2048 : Shape := ⟨2, ![2, 2048]⟩
abbrev S1x512x2048 : Shape := ⟨3, ![1, 512, 2048]⟩
abbrev S1x1x512 : Shape := ⟨3, ![1, 1, 512]⟩
abbrev S512 : Shape := ⟨1, ![512]⟩
abbrev S1x1x2048 : Shape := ⟨3, ![1, 1, 2048]⟩
abbrev S2048 : Shape := ⟨1, ![2048]⟩
abbrev S512x1 : Shape := ⟨2, ![512, 1]⟩
abbrev S1x2048 : Shape := ⟨2, ![1, 2048]⟩
abbrev S512x2048 : Shape := ⟨2, ![512, 2048]⟩

abbrev nBuf : Space → Nat
  | .hbm => 6
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x128, .f32⟩
  | .hbm, ⟨3, _⟩ => ⟨S8x2x128x1, .f32⟩
  | .hbm, ⟨4, _⟩ => ⟨S8x2x2048, .f32⟩
  | .hbm, ⟨5, _⟩ => ⟨S8x2048x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2x128x1, .f32⟩
  | .local _ .vmem, ⟨3, _⟩ => ⟨S1x2x128x1, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | .local _ .vmem, ⟨12, _⟩ => ⟨S1x512x2048, .f32⟩
  | .local _ .vmem, ⟨13, _⟩ => ⟨S1x512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_off1 (i : grid1.Coords) : Fin 3 → Nat :=
  let c0 : Index := 0#32
  let c0_0 : Index := 0#32
  let arg1 : BitVec 32 := BitVec.ofNat 32 (i 1).val
  let c512_i32 : BitVec 32 := 512#32
  let v0 : BitVec 32 := Scalar.muli arg1 c512_i32
  let v1 : Index := Scalar.indexCast v0
  ![0, 0, v1.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x2x128x1_S1x2x128x1_0_0_0_0 : ∀ a, (![0, 0, 0, 0] : Fin 4 → Nat) a + S1x2x128x1.size a ≤ S1x2x128x1.size a
  h_S1x2x128x1 : 0 < S1x2x128x1.numel
  shapeCasts_S1x2x128x1_S2x128 : S1x2x128x1.ShapeCasts S2x128
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  shapeCasts_S2x2048_S1x2x2048 : S2x2048.ShapeCasts S1x2x2048
  h_S1x1x512 : 0 < S1x1x512.numel
  shapeCasts_S1x1x512_S512 : S1x1x512.ShapeCasts S512
  inb_S1x2x2048_S1x1x2048_0_1_0 : ∀ a, (![0, 1, 0] : Fin 3 → Nat) a + S1x1x2048.size a ≤ S1x2x2048.size a
  h_S1x1x2048 : 0 < S1x1x2048.numel
  shapeCasts_S1x1x2048_S2048 : S1x1x2048.ShapeCasts S2048
  shapeCasts_S512_S512x1 : S512.ShapeCasts S512x1
  shapeCasts_S2048_S1x2048 : S2048.ShapeCasts S1x2048
  broadcasts_S512x1_S512x2048 : S512x1.Broadcasts S512x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512x2048_S1x512x2048 : S512x2048.ShapeCasts S1x512x2048
  dot_S2x128_S2048x128_S2x2048_1_1_0_0_n_n_wf : DotDims.WF S2x128 S2048x128 S2x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x128x1.size a ≤ S8x2x128x1.size a
  hwx0_1 : ∀ i : grid0.Coords, EltTy.bits .f32 = 32 ∨ (Rect.block (s := S8x2x128x1) S1x2x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x2048.size a ≤ S8x2x2048.size a
  hwx0_2 : ∀ i : grid0.Coords, EltTy.bits .f32 = 32 ∨ (Rect.block (s := S8x2x2048) S1x2x2048.size (cc0_transform_2 i) (hinb0_2 i)).WholeWords (EltTy.packing .f32)
  hrank1 : 0 < grid1.rank
  k1_off1_inb : ∀ i : grid1.Coords, ∀ a, (k1_off1 i) a + S1x1x512.size a ≤ S1x2x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x2048.size a ≤ S8x2x2048.size a
  hwx1_0 : ∀ i : grid1.Coords, EltTy.bits .f32 = 32 ∨ (Rect.block (s := S8x2x2048) S1x2x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S8x2048x2048.size a
  hwx1_1 : ∀ i : grid1.Coords, EltTy.bits .f32 = 32 ∨ (Rect.block (s := S8x2048x2048) S1x512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S8x2048x2048.size a
  hwx1_2 : ∀ i : grid1.Coords, EltTy.bits .f32 = 32 ∨ (Rect.block (s := S8x2048x2048) S1x512x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S8x2048x2048.size a
  hwx1_3 : ∀ i : grid1.Coords, EltTy.bits .f32 = 32 ∨ (Rect.block (s := S8x2048x2048) S1x512x2048.size (cc1_transform_3 i) (hinb1_3 i)).WholeWords (EltTy.packing .f32)

variable [Facts₀]

def dot_S2x128_S2048x128_S2x2048_1_1_0_0_n_n : DotDims S2x128 S2048x128 S2x2048 where
  lhsContracting := [1]
  rhsContracting := [1]
  lhsNonContracting := [0]
  rhsNonContracting := [0]
  lhsBatch := []
  rhsBatch := []
  wf := dot_S2x128_S2048x128_S2x2048_1_1_0_0_n_n_wf

abbrev win0_0 : Pipeline.Window sig grid0 :=
  Pipeline.Window.ofSpec (Memref.whole main_arg2) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x2x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x2x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x2048 : Shape := ⟨3, ![8, 2048, 2048]⟩
abbrev S8x2048x128 : Shape := ⟨3, ![8, 2048, 128]⟩
abbrev S8x2x128x1 : Shape := ⟨4, ![8, 2, 128, 1]⟩
abbrev S8x1x128x1 : Shape := ⟨4, ![8, 1, 128, 1]⟩
abbrev S8x128x1 : Shape := ⟨3, ![8, 128, 1]⟩
abbrev S8x2048x1 : Shape := ⟨3, ![8, 2048, 1]⟩
abbrev S8x1x2048 : Shape := ⟨3, ![8, 1, 2048]⟩
abbrev S_ : Shape := ⟨0, ![]⟩
abbrev S8x2048 : Shape := ⟨2, ![8, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x128, .f32⟩
  | .hbm, ⟨3, _⟩ => ⟨S8x2x128x1, .f32⟩
  | .hbm, ⟨4, _⟩ => ⟨S8x1x128x1, .f32⟩
  | .hbm, ⟨5, _⟩ => ⟨S8x128x1, .f32⟩
  | .hbm, ⟨6, _⟩ => ⟨S8x2048x1, .f32⟩
  | .hbm, ⟨7, _⟩ => ⟨S8x1x128x1, .f32⟩
  | .hbm, ⟨8, _⟩ => ⟨S8x128x1, .f32⟩
  | .hbm, ⟨9, _⟩ => ⟨S8x2048x1, .f32⟩
  | .hbm, ⟨10, _⟩ => ⟨S8x1x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .i1⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048x2048, .f32⟩
  | .hbm, ⟨51, _⟩ => ⟨S8x2048x2048, .i1⟩
  | .hbm, ⟨52, _⟩ => ⟨S_, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048x2048, .f32⟩
  | .hbm, ⟨70, _⟩ => ⟨S8x2048x2048, .f32⟩
  | .hbm, ⟨71, _⟩ => ⟨S_, .f32⟩
  | .hbm, ⟨72, _⟩ => ⟨S8x2048x2048, .f32⟩
  | .hbm, ⟨73, _⟩ => ⟨S8x2048x2048, .f32⟩
  | .hbm, ⟨74, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_call0_v0 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_call1_v0 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S8x2x128x1_S8x1x128x1_0_0_0_0 : S8x2x128x1.Slices ![0, 0, 0, 0] S8x1x128x1
  shapeCasts_S8x1x128x1_S8x128x1 : S8x1x128x1.ShapeCasts S8x128x1
  slices_S8x2x128x1_S8x1x128x1_0_1_0_0 : S8x2x128x1.Slices ![0, 1, 0, 0] S8x1x128x1
  transposes_S8x2048x1_S8x1x2048_0_2_1 : S8x2048x1.Transposes [0, 2, 1] S8x1x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  dot_S8x2048x128_S8x128x1_S8x2048x1_2_1_1_2_0_0_wf : DotDims.WF S8x2048x128 S8x128x1 S8x2048x1 [2] [1] [1] [2] [0] [0]

variable [Facts₀]

def dot_S8x2048x128_S8x128x1_S8x2048x1_2_1_1_2_0_0 : DotDims S8x2048x128 S8x128x1 S8x2048x1 where
  lhsContracting := [2]
  rhsContracting := [1]
  lhsNonContracting := [1]
  rhsNonContracting := [2]
  lhsBatch := [0]
  rhsBatch := [0]
  wf := dot_S8x2048x128_S8x128x1_S8x2048x1_2_1_1_2_0_0_wf

class Facts : Prop extends Facts₀ where

variable [Facts]
-- ==== Proof.Spec.lean ====
/-
  The mathematics of the certificate, free of both programs.

  Per head `h` the two node scores are `sc h 0 n = Σ_k V[h,0,k,0]·X[h,n,k]` and `sc h 1 n = Σ_k V[h,1,k,0]·X[h,n,k]`;
  the affinity of the pair `(i, j)` is `σ(sc h 0 i + sc h 1 j)` with `σ x = 1/(1 + e^{-x})`, and its weight is
  `w = e^{σ(…)}`. For a 0/1 pattern `P` the softmax of the affinities over the stored entries of row `i` is
  `w_ij·P_ij / Σ_j' w_ij'·P_ij'`; the result is half the local pattern's softmax plus half the long-range one's.

  One side computes the share as `(w·P)·(½ / Σ w·P)` (`shareAt`); the other masks the affinities with a large
  negative number off the pattern, subtracts the row maximum before exponentiating, multiplies by the indicator
  of the pattern and divides by the row sum, then halves (`softAt`). On the extended reals the two agree when the
  scores are real numbers, the pattern is 0/1 valued and every row of it has a stored entry (`RowLaw.lean`).
-/
import Idealize.ShloMosaic.PureOps.Ideal
import Idealize.ShloMosaic.Lib.ValueIdx

noncomputable section

namespace Cert.SparseMix

open Idealize.ShloMosaic Idealize.ShloMosaic.ValueIdx

/-- A pattern (or the result): one entry per head, row node and column node. -/
abbrev Pat := (⟨3, ![8, 2048, 2048]⟩ : Shape).Idx → EReal
/-- The node features: per head and node, 128 channels. -/
abbrev Feat := (⟨3, ![8, 2048, 128]⟩ : Shape).Idx → EReal
/-- The two score vectors of each head, 128 channels each. -/
abbrev Wts := (⟨4, ![8, 2, 128, 1]⟩ : Shape).Idx → EReal
/-- Scores by head, by which of the two vectors, by node. -/
abbrev Sc := Fin 8 → Fin 2 → Fin 2048 → EReal

/-- The floating-point constants the two programs spell, as extended reals. -/
abbrev half : EReal := Ideal.ofBits .f32 0x3F000000#32
abbrev one : EReal := Ideal.ofBits .f32 0x3F800000#32
abbrev zero : EReal := Ideal.ofBits .f32 0x00000000#32
abbrev negMax : EReal := Ideal.ofBits .f32 0xFF7FFFFF#32
abbrev negInf : EReal := Ideal.ofBits .f32 0xFF800000#32

theorem half_eq : half = ((1 / 2 : ℝ) : EReal) := by
  simp [half, Ideal.ofBits, Ideal.ieee, -EReal.coe_mul]; norm_num
theorem one_eq : one = 1 := by
  simp [one, Ideal.ofBits, Ideal.ieee, -EReal.coe_mul]; norm_num
theorem zero_eq : zero = 0 := by
  simp [zero, Ideal.ofBits, Ideal.ieee]
theorem negInf_eq : negInf = ⊥ := by
  simp [negInf, Ideal.ofBits, Ideal.ieee]
/-- The large negative fill is some real number; which one never matters. -/
theorem negMax_real : ∃ r : ℝ, negMax = (r : EReal) := by
  simp [negMax, Ideal.ofBits, Ideal.ieee, -EReal.coe_mul]
  exact ⟨-(16777215 * 2 ^ 104), by push_cast; rfl⟩

/-- The score of node `n` of head `h` against the head's vector `a`: a contraction over the 128 channels. -/
def scoreAt (X : Feat) (V : Wts) : Sc := fun h a n => ∑ k : Fin 128, V (ix4 h a k (0 : Fin 1)) * X (ix3 h n k)

/-- The weight of the pair `(i, j)`: `e` to the sigmoid of the sum of the two scores. -/
def wAt (sc : Sc) (h : Fin 8) (i j : Fin 2048) : EReal :=
  Ideal.exp (Ideal.logistic (sc h 0 i + sc h 1 j))

/-- Half the softmax over pattern `P`'s row, as weight times pattern times (half over the row's sum). -/
def shareAt (sc : Sc) (P : Pat) (h : Fin 8) (i j : Fin 2048) : EReal :=
  (wAt sc h i j * P (ix3 h i j)) * Ideal.div half (∑ j' : Fin 2048, wAt sc h i j' * P (ix3 h i j'))

/-- The mixed attention as the fused form computes it: the local share plus the long-range share. -/
def attAt (sc : Sc) (loc lon : Pat) (h : Fin 8) (i j : Fin 2048) : EReal :=
  shareAt sc loc h i j + shareAt sc lon h i j

/-- The sigmoid spelled out, as the masked form computes it. -/
def sigAt (sc : Sc) (h : Fin 8) (i j : Fin 2048) : EReal :=
  Ideal.div one (one + Ideal.exp (-(sc h 0 i + sc h 1 j)))

/-- The masked logit: pattern times affinity (over the temperature one) on the pattern, the large negative fill off it. -/
def logitAt (sc : Sc) (P : Pat) (h : Fin 8) (i j : Fin 2048) : EReal :=
  if P (ix3 h i j) ≠ zero then Ideal.div (P (ix3 h i j) * sigAt sc h i j) one else negMax

/-- The row maximum of the masked logits, folded from minus infinity. -/
def rowMax (sc : Sc) (P : Pat) (h : Fin 8) (i : Fin 2048) : EReal :=
  (Finset.univ : Finset (Fin 2048)).fold max negInf (fun j => logitAt sc P h i j)

/-- The shifted exponential times the pattern's indicator. -/
def expAt (sc : Sc) (P : Pat) (h : Fin 8) (i j : Fin 2048) : EReal :=
  Ideal.exp (logitAt sc P h i j - rowMax sc P h i) * (if P (ix3 h i j) ≠ zero then (1 : EReal) else 0)

/-- The softmax over the pattern's stored entries, as a quotient by the row sum (taken from zero). -/
def softAt (sc : Sc) (P : Pat) (h : Fin 8) (i j : Fin 2048) : EReal :=
  Ideal.div (expAt sc P h i j) (zero + ∑ j' : Fin 2048, expAt sc P h i j')

/-- The mixed attention as the masked form computes it: half the long-range softmax plus half the local one. -/
def refAt (sc : Sc) (loc lon : Pat) (h : Fin 8) (i j : Fin 2048) : EReal :=
  half * softAt sc lon h i j + half * softAt sc loc h i j

end Cert.SparseMix

end
-- ==== Proof.RowLaw.lean ====
/-
  The row law: on the extended reals, half the masked, max-shifted softmax of a row equals the share
  (w·P)·(½ / Σ w·P), for real scores and a 0/1 pattern with a stored entry in the row.

  Fix a head h and a row i. With real scores the affinity s_j = σ(x_j) is a real number, the masked logit is
  s_j on the pattern and a real fill off it, so the row maximum μ is a real number; then
  e^{logit_j - μ}·[P_j ≠ 0] = e^{s_j}·P_j·e^{-μ}, the row sum is D·e^{-μ} with D = Σ_j' e^{s_j'}·P_j' > 0,
  and the quotient is e^{s_j}·P_j / D: the shift cancels.
-/
import proofs.«133463_g19713899889134_cont_8to1_1390_10_alg».proof.Proof.Spec

noncomputable section

namespace Cert.SparseMix

open Idealize.ShloMosaic Idealize.ShloMosaic.ValueIdx

/-- The coercion of a finite sum of reals is the sum of the coercions. -/
theorem coe_sum {ι : Type} (S : Finset ι) (f : ι → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A running maximum from ⊥ over a nonempty family of reals is a real. -/
theorem fold_max_real {ι : Type} (S : Finset ι) (f : ι → ℝ) (hS : S.Nonempty) :
    ∃ μ : ℝ, S.fold max (⊥ : EReal) (fun j => (f j : EReal)) = (μ : EReal) := by
  classical
  induction S using Finset.induction_on with
  | empty => exact absurd hS Finset.not_nonempty_empty
  | insert a S ha ih =>
    rw [Finset.fold_insert ha]
    rcases S.eq_empty_or_nonempty with hE | hN
    · subst hE
      exact ⟨f a, by simp⟩
    · obtain ⟨μ, hμ⟩ := ih hN
      exact ⟨max (f a) μ, by rw [hμ]; exact (EReal.coe_strictMono.monotone.map_max).symm⟩

/-- Dividing by one changes nothing. -/
theorem div_one_eq (x : EReal) : Ideal.div x 1 = x := by
  rw [Ideal.div, if_neg one_ne_zero, ← EReal.coe_one, ← EReal.coe_inv, inv_one, EReal.coe_one, mul_one]

/-- The one-pattern law: half the masked softmax is the share. -/
theorem half_softAt_eq_shareAt (sc : Sc) (P : Pat)
    (hsc : ∀ h a n, ∃ r : ℝ, sc h a n = (r : EReal))
    (hP : ∀ (h : Fin 8) (i j : Fin 2048), P (ix3 h i j) = 0 ∨ P (ix3 h i j) = 1)
    (hRow : ∀ (h : Fin 8) (i : Fin 2048), ∃ j : Fin 2048, P (ix3 h i j) ≠ 0)
    (h : Fin 8) (i j : Fin 2048) :
    half * softAt sc P h i j = shareAt sc P h i j := by
  choose r hr using hsc
  obtain ⟨m, hm⟩ := negMax_real
  -- the affinity is a real number, and so is the weight
  have hsig : ∀ j, ∃ s : ℝ, sigAt sc h i j = (s : EReal) ∧ wAt sc h i j = (Real.exp s : EReal) := by
    intro j
    refine ⟨(1 + Real.exp (-(r h 0 i + r h 1 j)))⁻¹, ?_, ?_⟩
    · have hlg : sigAt sc h i j = Ideal.logistic (sc h 0 i + sc h 1 j) := by
        rw [sigAt, one_eq]; rfl
      rw [hlg, hr, hr, ← EReal.coe_add, Ideal.logistic_coe]
    · rw [wAt, hr, hr, ← EReal.coe_add, Ideal.logistic_coe, Ideal.exp_coe]
  choose s hs hw using hsig
  -- the pattern's entry as a real number, which is also the indicator of the stored entries
  have hp : ∀ j, ∃ p : ℝ, P (ix3 h i j) = (p : EReal) ∧ (p = 0 ∨ p = 1) ∧
      (if P (ix3 h i j) ≠ zero then (1 : EReal) else 0) = (p : EReal) ∧
      ∃ l : ℝ, logitAt sc P h i j = (l : EReal) ∧ Real.exp l * p = Real.exp (s j) * p := by
    intro j
    rcases hP h i j with h0 | h1
    · refine ⟨0, by rw [h0, EReal.coe_zero], Or.inl rfl, ?_, m, ?_, by simp⟩
      · rw [zero_eq, if_neg (by simp [h0]), EReal.coe_zero]
      · rw [logitAt, zero_eq, if_neg (by simp [h0]), hm]
    · have hne : P (ix3 h i j) ≠ 0 := by rw [h1]; exact one_ne_zero
      refine ⟨1, by rw [h1, EReal.coe_one], Or.inr rfl, ?_, s j, ?_, rfl⟩
      · rw [zero_eq, if_pos hne, EReal.coe_one]
      · rw [logitAt, zero_eq, if_pos hne, h1, one_mul, one_eq, div_one_eq, hs]
  choose p hpP hp01 hind l hl hlp using hp
  -- the row maximum is a real number
  obtain ⟨μ, hμ⟩ : ∃ μ : ℝ, rowMax sc P h i = (μ : EReal) := by
    obtain ⟨μ, hμ⟩ := fold_max_real Finset.univ l ⟨i, Finset.mem_univ i⟩
    refine ⟨μ, ?_⟩
    have hfun : (fun j => logitAt sc P h i j) = fun j => (l j : EReal) := funext hl
    rw [rowMax, negInf_eq, hfun, hμ]
  -- the shifted exponential is the weight times the pattern, times the common factor
  have hexp : ∀ j, expAt sc P h i j = ((Real.exp (s j) * p j * Real.exp (-μ) : ℝ) : EReal) := by
    intro j
    rw [expAt, hind, hl, hμ, ← EReal.coe_sub, Ideal.exp_coe, ← EReal.coe_mul, sub_eq_add_neg, Real.exp_add,
      mul_right_comm, hlp j]
  -- the real row sum of weight times pattern is positive
  have hD : 0 < ∑ j' : Fin 2048, Real.exp (s j') * p j' := by
    obtain ⟨j0, hj0⟩ := hRow h i
    have hp1 : p j0 = 1 := by
      rcases hp01 j0 with h0 | h1
      · exact absurd (by rw [hpP j0, h0, EReal.coe_zero]) hj0
      · exact h1
    refine Finset.sum_pos' (fun j' _ => ?_) ⟨j0, Finset.mem_univ j0, ?_⟩
    · rcases hp01 j' with h0 | h1
      · rw [h0, mul_zero]
      · rw [h1, mul_one]; exact (Real.exp_pos _).le
    · rw [hp1, mul_one]; exact Real.exp_pos _
  have hsumE : zero + ∑ j' : Fin 2048, expAt sc P h i j' =
      (((∑ j' : Fin 2048, Real.exp (s j') * p j') * Real.exp (-μ) : ℝ) : EReal) := by
    have hfun : (fun j' => expAt sc P h i j') = fun j' => ((Real.exp (s j') * p j' * Real.exp (-μ) : ℝ) : EReal) :=
      funext hexp
    rw [zero_eq, zero_add, hfun, ← coe_sum, ← Finset.sum_mul]
  have hsumW : ∑ j' : Fin 2048, wAt sc h i j' * P (ix3 h i j') =
      ((∑ j' : Fin 2048, Real.exp (s j') * p j' : ℝ) : EReal) := by
    have hfun : (fun j' => wAt sc h i j' * P (ix3 h i j')) = fun j' => ((Real.exp (s j') * p j' : ℝ) : EReal) := by
      funext j'
      rw [hw, hpP, ← EReal.coe_mul]
    rw [hfun, ← coe_sum]
  have hE : (∑ j' : Fin 2048, Real.exp (s j') * p j') * Real.exp (-μ) ≠ 0 :=
    (mul_pos hD (Real.exp_pos _)).ne'
  rw [softAt, hsumE, hexp, Ideal.div_coe hE, shareAt, hsumW, Ideal.div_coe hD.ne', hw, hpP, half_eq]
  simp only [← EReal.coe_mul]
  rw [EReal.coe_eq_coe_iff]
  have hμ0 : Real.exp (-μ) ≠ 0 := (Real.exp_pos _).ne'
  field_simp

theorem refAt_eq_attAt (sc : Sc) (loc lon : Pat)
    (hsc : ∀ h a n, ∃ r : ℝ, sc h a n = (r : EReal))
    (hloc : ∀ (h : Fin 8) (i j : Fin 2048), loc (ix3 h i j) = 0 ∨ loc (ix3 h i j) = 1)
    (hlon : ∀ (h : Fin 8) (i j : Fin 2048), lon (ix3 h i j) = 0 ∨ lon (ix3 h i j) = 1)
    (hlocRow : ∀ (h : Fin 8) (i : Fin 2048), ∃ j : Fin 2048, loc (ix3 h i j) ≠ 0)
    (hlonRow : ∀ (h : Fin 8) (i : Fin 2048), ∃ j : Fin 2048, lon (ix3 h i j) ≠ 0)
    (h : Fin 8) (i j : Fin 2048) :
    refAt sc loc lon h i j = attAt sc loc lon h i j := by
  rw [refAt, attAt, half_softAt_eq_shareAt sc lon hsc hlon hlonRow, half_softAt_eq_shareAt sc loc hsc hloc hlocRow,
    add_comm]

end Cert.SparseMix

end
-- ==== Proof.PreRead.lean ====
/-
  The input precondition, read back. The printed predicate is a conjunction of eight all-quantified tests over the
  four inputs: every element has absolute value below +∞ (each of the four arrays); every element of each 0/1
  pattern equals 0 or equals 1; and every row (h, i) of each pattern has some column j with a nonzero entry (an
  or-reduction along the last axis, then an and-reduction over the remaining two). From "the predicate is 1" this
  file derives, at the extended reals: the two feature arrays are real-valued, the two patterns take values in
  {0, 1}, and every row of each pattern has a nonzero entry.
-/
import proofs.«133463_g19713899889134_cont_8to1_1390_10_alg».proof.Pre_finite_inputs
import proofs.«133463_g19713899889134_cont_8to1_1390_10_alg».proof.Proof.Gen.Pre_finite_inputs
import Idealize.ShloMosaic.Lib.ReduceAll
import Idealize.ShloMosaic.Lib.StableHlo.Predicate
import Idealize.ShloMosaic.PureOps.Ideal.Laws
import Idealize.ShloMosaic.Lib.ValueIdx

namespace Cert.PreRead

open Idealize.ShloMosaic Idealize.ShloMosaic.ValueIdx

/-- The f32 pattern 0x7F800000 denotes +∞. -/
theorem ofBits_inf : Ideal.ofBits .f32 0x7F800000#32 = (⊤ : EReal) := by
  simp [Ideal.ofBits, Ideal.ieee]

/-- The f32 pattern 0x3F800000 denotes 1. -/
theorem ofBits_one : Ideal.ofBits .f32 0x3F800000#32 = (1 : EReal) := by
  simp [Ideal.ofBits, Ideal.ieee, -EReal.coe_mul]; norm_num

/-- An extended real whose absolute value max x (-x) is below +∞ is a real. -/
theorem finite_of_abs_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A left fold by or over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduce by or from 0 that is 1 at j had a 1 at some operand index that reduces into j. -/
theorem reduce_ori_eq_one {s t u : Shape} {axes : List (Fin s.rank)} (x : s.Idx → BitVec 1) (init : u.Idx → BitVec 1)
    (h : s.ReducesTo axes t) (hu : 0 < u.numel) (j : t.Idx) (hinit : ∀ k, init k = 0#1)
    (e : Host.reduce IntOp.ori x init h hu j = 1#1) : ∃ i, h.drop i = j ∧ x i = 1#1 := by
  rw [Host.reduce_eq_foldl] at e
  rcases foldl_ori_eq_one x _ _ e with h1 | ⟨n, hn, hf⟩
  · rw [hinit] at h1; exact absurd h1 (by decide)
  · rw [List.mem_filter] at hn
    exact ⟨n, by simpa using hn.2, hf⟩

/-- The ordered-equal comparison of two extended reals is 1 exactly when they are equal. -/
theorem cmp_oeq_eq_one (x y : EReal) : Ideal.cmp .oeq x y = 1#1 ↔ x = y := by
  by_cases hxy : x = y <;> simp [Ideal.cmp, hxy]

/-- The not-equal comparison of two extended reals is 1 exactly when they differ. -/
theorem cmp_une_eq_one (x y : EReal) : Ideal.cmp .une x y = 1#1 ↔ x ≠ y := by
  by_cases hxy : x = y <;> simp [Ideal.cmp, hxy]

open Cert.Pre_finite_inputs in
/-- A pattern whose "every row has a nonzero entry" test came out 1 has, in each row (h, i), a column j with a
    nonzero entry. -/
theorem row_of_reduce [Cert.Pre_finite_inputs.Facts] (a : FVec Ideal S8x2048x2048 .f32)
    (e : Host.reduce IntOp.andi
      (Host.reduce IntOp.ori (cmpf CmpFPredicate.une a (broadcastInDim S8x2048x2048 ![] Facts.bcast_S_S8x2048x2048 (constant S_ FTy.f32 0#32)))
        (constantI S_ 1 0#1) Facts.reducesTo_S8x2048x2048_S8x2048_d2 Facts.h_S_)
      (constantI S_ 1 1#1) Facts.reducesTo_S8x2048_S_d0_1 Facts.h_S_ ix0 = 1#1)
    (h : Fin 8) (i : Fin 2048) : ∃ j : Fin 2048, a (ValueIdx.ix3 h i j) ≠ 0 := by
  haveI : Subsingleton S_.Idx := ⟨fun a b => funext fun d => d.elim0⟩
  have e1 := Host.reduce_andi_all _ _ _ _ _ e (ix2 h i)
  obtain ⟨n, hn, hx⟩ := reduce_ori_eq_one _ _ _ _ _ (fun _ => rfl) e1
  change Ideal.cmp .une (a n) (Ideal.ofBits .f32 0x00000000#32) = 1#1 at hx
  rw [Ideal.ofBits_zero_f32, cmp_une_eq_one] at hx
  have c0 : (n 0 : Nat) = h := by
    have := Shape.ReducesTo.drop_apply_val_of_eq Facts.reducesTo_S8x2048x2048_S8x2048_d2 n 0 0
    rw [hn] at this; exact this.symm
  have c1 : (n 1 : Nat) = i := by
    have := Shape.ReducesTo.drop_apply_val_of_eq Facts.reducesTo_S8x2048x2048_S8x2048_d2 n 1 1
    rw [hn] at this; exact this.symm
  have hn' : n = ix3 h i (n 2) := by
    funext d
    match d with
    | ⟨0, _⟩ => exact Fin.ext c0
    | ⟨1, _⟩ => exact Fin.ext c1
    | ⟨2, _⟩ => rfl
  refine ⟨n 2, ?_⟩
  exact fun hz => hx ((congrArg a hn').trans hz)

open Cert.Pre_finite_inputs in
theorem of_pre [Cert.Pre_finite_inputs.Facts]
    (a0 a1 : FVec Ideal Cert.Pre_finite_inputs.S8x2048x2048 .f32) (a2 : FVec Ideal Cert.Pre_finite_inputs.S8x2048x128 .f32)
    (a3 : FVec Ideal Cert.Pre_finite_inputs.S8x2x128x1 .f32)
    (hpre : Cert.Pre_finite_inputs.fn (F := Ideal) a0 a1 a2 a3 = (fun _ => 1#1)) :
    (∀ i, ∃ r : ℝ, a2 i = (r : EReal)) ∧ (∀ i, ∃ r : ℝ, a3 i = (r : EReal))
    ∧ (∀ i, a0 i = 0 ∨ a0 i = 1) ∧ (∀ i, a1 i = 0 ∨ a1 i = 1)
    ∧ (∀ (h : Fin 8) (i : Fin 2048), ∃ j : Fin 2048, a0 (ValueIdx.ix3 h i j) ≠ 0)
    ∧ (∀ (h : Fin 8) (i : Fin 2048), ∃ j : Fin 2048, a1 (ValueIdx.ix3 h i j) ≠ 0) := by
  have h0 := congrFun hpre ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨h_a0fin, h_a1fin⟩, h_a2fin⟩, h_a3fin⟩, h_a0bin⟩, h_a1bin⟩, h_a0row⟩, h_a1row⟩ := h0
  haveI : Subsingleton S_.Idx := ⟨fun a b => funext fun d => d.elim0⟩
  refine ⟨fun i => ?_, fun i => ?_, fun i => ?_, fun i => ?_, fun h i => ?_, fun h i => ?_⟩
  · have e := Host.reduce_andi_all _ _ _ _ _ h_a2fin i
    change Ideal.cmp .olt (max (a2 i) (-(a2 i))) (Ideal.ofBits .f32 0x7F800000#32) = 1#1 at e
    rw [ofBits_inf] at e
    exact finite_of_abs_lt _ e
  · have e := Host.reduce_andi_all _ _ _ _ _ h_a3fin i
    change Ideal.cmp .olt (max (a3 i) (-(a3 i))) (Ideal.ofBits .f32 0x7F800000#32) = 1#1 at e
    rw [ofBits_inf] at e
    exact finite_of_abs_lt _ e
  · have e := Host.reduce_andi_all _ _ _ _ _ h_a0bin i
    change IntOp.ori (Ideal.cmp .oeq (a0 i) (Ideal.ofBits .f32 0x00000000#32))
      (Ideal.cmp .oeq (a0 i) (Ideal.ofBits .f32 0x3F800000#32)) = 1#1 at e
    rw [Ideal.ofBits_zero_f32, ofBits_one, IntOp.ori_eq_one, cmp_oeq_eq_one, cmp_oeq_eq_one] at e
    exact e
  · have e := Host.reduce_andi_all _ _ _ _ _ h_a1bin i
    change IntOp.ori (Ideal.cmp .oeq (a1 i) (Ideal.ofBits .f32 0x00000000#32))
      (Ideal.cmp .oeq (a1 i) (Ideal.ofBits .f32 0x3F800000#32)) = 1#1 at e
    rw [Ideal.ofBits_zero_f32, ofBits_one, IntOp.ori_eq_one, cmp_oeq_eq_one, cmp_oeq_eq_one] at e
    exact e
  · exact row_of_reduce a0 h_a0row h i
  · exact row_of_reduce a1 h_a1row h i

end Cert.PreRead
-- ==== Proof.RefValue.lean ====
/-
  The reference program read element by element.

  At head `h`, row node `i` and column node `j` the reference's result is
  `½ · soft(lon) + ½ · soft(loc)`, where for a pattern `P` the softmax `soft(P)` at `(h, i, j)` is
  `e^{ℓ_ij − max_j' ℓ_ij'} · [P_ij ≠ 0]` over `0 +` the sum of the same over the row, the masked logit `ℓ_ij` is
  `P_ij · σ_ij / 1` on the pattern and the large negative fill off it, and `σ_ij = 1 / (1 + e^{−(s⁰_i + s¹_j)})`
  with `s^a_n = Σ_k V[h,a,k,0] · X[h,n,k]` the two contractions over the 128 channels.

  The proof follows the program's operations in order. The two contractions are read as sums and their index
  compositions identified with the literal indices `(h, i, k)`, `(h, j, k)`, `(h, a, k, 0)`; the sigmoid, the select
  on "pattern differs from zero", the conversion of that comparison to 0/1, the subtraction of the row maximum, the
  exponential, the row sum from zero and the quotient are read one at a time. The row maximum is a reduction over
  the last axis from minus infinity: it is the fold of `max` over the row's 2048 entries. The same chain is written
  once for the local pattern and once for the long-range one; the scalar facts they share come first.
-/
import proofs.«133463_g19713899889134_cont_8to1_1390_10_alg».proof.Proof.Gen.ReferenceIdeal.Read
import proofs.«133463_g19713899889134_cont_8to1_1390_10_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx
open Cert.SparseMix

/-- The first score's two index compositions at a row: the feature index and the vector index. -/
theorem lidx_v2 (h : Fin 8) (i j : Fin 2048) (k : Fin 128) :
    lidx_main_v2 (idx_main_v7 (ix3 h i j)) k = ix3 h i k :=
  funext fun a => Fin.ext (by match a with | ⟨0, _⟩ => rfl | ⟨1, _⟩ => rfl | ⟨2, _⟩ => rfl)

theorem ridx_v2 (h : Fin 8) (i j : Fin 2048) (k : Fin 128) :
    idx_main_v0 (idx_main_v1 (ridx_main_v2 (idx_main_v7 (ix3 h i j)) k)) = ix4 h (0 : Fin 2) k (0 : Fin 1) :=
  funext fun a => Fin.ext (by
    have hk := k.isLt
    match a with
    | ⟨0, _⟩ => show ((h.val * 128 + k.val) * 1 + 0) / 128 = h.val; omega
    | ⟨1, _⟩ => rfl
    | ⟨2, _⟩ => show ((h.val * 128 + k.val) * 1 + 0) / 1 % 128 = k.val; omega
    | ⟨3, _⟩ => rfl)

/-- The second score's index compositions at a column. -/
theorem lidx_v5 (h : Fin 8) (i j : Fin 2048) (k : Fin 128) :
    lidx_main_v5 (idx_main_v6 (idx_main_v8 (ix3 h i j))) k = ix3 h j k :=
  funext fun a => Fin.ext (by match a with | ⟨0, _⟩ => rfl | ⟨1, _⟩ => rfl | ⟨2, _⟩ => rfl)

theorem ridx_v5 (h : Fin 8) (i j : Fin 2048) (k : Fin 128) :
    idx_main_v3 (idx_main_v4 (ridx_main_v5 (idx_main_v6 (idx_main_v8 (ix3 h i j))) k)) = ix4 h (1 : Fin 2) k (0 : Fin 1) :=
  funext fun a => Fin.ext (by
    have hk := k.isLt
    match a with
    | ⟨0, _⟩ => show ((h.val * 128 + k.val) * 1 + 0) / 128 = h.val; omega
    | ⟨1, _⟩ => rfl
    | ⟨2, _⟩ => show ((h.val * 128 + k.val) * 1 + 0) / 1 % 128 = k.val; omega
    | ⟨3, _⟩ => rfl)

section
variable (x2 : (⟨S8x2048x128, .f32⟩ : BufTy).Contents (Elt Ideal)) (x3 : (⟨S8x2x128x1, .f32⟩ : BufTy).Contents (Elt Ideal))
  (h : Fin 8) (i j : Fin 2048)

/-- The row score broadcast along the columns is the first score of the row node. -/
theorem v7_eq : val_main_v7 (F := Ideal) x2 x3 (ix3 h i j) = scoreAt x2 x3 h 0 i := by
  rw [val_main_v7_apply, val_main_v2_apply]
  simp only [val_main_v1_apply, val_main_v0_apply, lidx_v2, ridx_v2]
  exact Finset.sum_congr rfl fun k _ => mul_comm _ _

/-- The column score broadcast along the rows is the second score of the column node. -/
theorem v8_eq : val_main_v8 (F := Ideal) x2 x3 (ix3 h i j) = scoreAt x2 x3 h 1 j := by
  rw [val_main_v8_apply, val_main_v6_apply, val_main_v5_apply]
  simp only [val_main_v4_apply, val_main_v3_apply, lidx_v5, ridx_v5]
  exact Finset.sum_congr rfl fun k _ => mul_comm _ _

/-- The affinity: the sigmoid of the sum of the two scores, spelled as one over one plus the exponential. -/
theorem v15_eq : val_main_v15 (F := Ideal) x2 x3 (ix3 h i j) = sigAt (scoreAt x2 x3) h i j := by
  rw [val_main_v15_apply, val_main_v14_apply, val_main_cst_0_apply, val_main_v13_apply, val_main_v12_apply,
    val_main_cst_apply, val_main_v11_apply, val_main_v10_apply, val_main_v9_apply, v7_eq, v8_eq]
  rfl
end

/-! ### Scalar and fold facts shared by the two patterns -/

/-- Off zero the comparison word is one, at zero it is zero. -/
theorem cmp_une_of_ne {P : Ideal .f32} (hP : P ≠ zero) : Ideal.cmp .une P zero = 1#1 := by
  show BitVec.ofBool (decide (P ≠ zero)) = 1#1
  rw [decide_eq_true hP]; rfl
theorem cmp_une_of_eq {P : Ideal .f32} (hP : P = zero) : Ideal.cmp .une P zero = 0#1 := by
  show BitVec.ofBool (decide (P ≠ zero)) = 0#1
  rw [decide_eq_false (not_not.mpr hP)]; rfl

/-- The masked entry: the select on "pattern differs from zero" is the case split of the masked logit. -/
theorem select_une (P s : Ideal .f32) :
    Scalar.select (FloatOps.cmpf (F := Ideal) .une P (FloatOps.ofBits .f32 0x00000000#32))
        (FloatOps.hostDivf (FloatOps.mulf P s) (FloatOps.ofBits .f32 0x3F800000#32)) (FloatOps.ofBits (F := Ideal) .f32 0xFF7FFFFF#32)
      = if P ≠ zero then Ideal.div (P * s) one else negMax := by
  rw [Ideal.cmpf_def]
  by_cases hP : P = zero
  · rw [if_neg (not_not.mpr hP)]
    show Scalar.select (Ideal.cmp .une P zero) _ _ = _
    rw [cmp_une_of_eq hP, select_zero]; rfl
  · rw [if_pos hP]
    show Scalar.select (Ideal.cmp .une P zero) _ _ = _
    rw [cmp_une_of_ne hP, select_one]; rfl

/-- The comparison word converted to a float is the indicator of the pattern. -/
theorem uitofp_une (P : Ideal .f32) :
    FloatOps.uitofp (F := Ideal) .f32 (FloatOps.cmpf (F := Ideal) .une P (FloatOps.ofBits .f32 0x00000000#32))
      = if P ≠ zero then (1 : EReal) else 0 := by
  rw [Ideal.cmpf_def]
  show (((Ideal.cmp .une P zero).toNat : ℝ) : EReal) = _
  by_cases hP : P = zero
  · rw [if_neg (not_not.mpr hP), cmp_une_of_eq hP]; simp
  · rw [if_pos hP, cmp_une_of_ne hP]; simp

/-- A row's index with the column put back. -/
theorem lift_ix3 (hr : S8x2048x2048.Reduces [2] S8x2048) (h : Fin 8) (i : Fin 2048) (k : Fin (S8x2048x2048.size 2)) :
    hr.lift (ix2 h i) k = ix3 h i (⟨k.val, k.isLt⟩ : Fin 2048) :=
  funext fun c => Fin.ext (by match c with | ⟨0, _⟩ => rfl | ⟨1, _⟩ => rfl | ⟨2, _⟩ => rfl)

/-- The maximum over the last axis from minus infinity, at row `(h, i)`, is the fold of `max` over the row's entries. -/
theorem rowmax_fold (L : (⟨S8x2048x2048, .f32⟩ : BufTy).Contents (Elt Ideal)) (h : Fin 8) (i : Fin 2048) :
    Host.reduce FloatOps.maximumf L (constant (F := Ideal) S_ .f32 0xFF800000#32) reducesTo_S8x2048x2048_S8x2048_d2 h_S_ (ix2 h i)
      = (Finset.univ : Finset (Fin 2048)).fold max negInf (fun k => L (ix3 h i k)) := by
  have hr : S8x2048x2048.Reduces [2] S8x2048 := by decide
  refine (Host.reduce_eq_fold_single (α := Ideal .f32) (FloatOps.maximumf (F := Ideal) (φ := .f32)) L _
    reducesTo_S8x2048x2048_S8x2048_d2 hr h_S_ (ix2 h i)).trans ?_
  have hf : (L ∘ hr.lift (ix2 h i)) = fun k : Fin 2048 => L (ix3 h i k) := funext fun k => congrArg L (lift_ix3 hr h i k)
  exact congrArg (fun f => Finset.fold max negInf f (Finset.univ : Finset (Fin 2048))) hf

/-! ### The local pattern: masked logits, row maximum, shifted exponentials, softmax -/
section
variable (x0 : (⟨S8x2048x2048, .f32⟩ : BufTy).Contents (Elt Ideal)) (x2 : (⟨S8x2048x128, .f32⟩ : BufTy).Contents (Elt Ideal))
  (x3 : (⟨S8x2x128x1, .f32⟩ : BufTy).Contents (Elt Ideal)) (h : Fin 8) (i j : Fin 2048)

/-- The masked logit of the local pattern. -/
theorem v21_eq : val_main_v21 (F := Ideal) x0 x2 x3 (ix3 h i j) = logitAt (scoreAt x2 x3) x0 h i j := by
  rw [val_main_v21_apply, val_main_v20_apply, val_main_v19_apply, val_main_cst_2_apply, val_main_v18_apply,
    val_main_v17_apply, val_main_cst_1_apply, val_main_v16_apply, val_main_call0_v0_apply, val_main_cst_3_apply, v15_eq]
  exact select_une _ _

/-- Its row maximum. -/
theorem v22_eq : val_main_v22 (F := Ideal) x0 x2 x3 (ix2 h i) = rowMax (scoreAt x2 x3) x0 h i := by
  refine (rowmax_fold (val_main_v21 (F := Ideal) x0 x2 x3) h i).trans ?_
  exact congrArg (fun f => Finset.fold max negInf f (Finset.univ : Finset (Fin 2048))) (funext fun k => v21_eq x0 x2 x3 h i k)

theorem idx_v23 : idx_main_v23 (idx_main_v24 (ix3 h i j)) = ix2 h i :=
  funext fun a => Fin.ext (by match a with | ⟨0, _⟩ => rfl | ⟨1, _⟩ => rfl)

/-- The shifted exponential times the indicator. -/
theorem v28_eq : val_main_v28 (F := Ideal) x0 x2 x3 (ix3 h i j) = expAt (scoreAt x2 x3) x0 h i j := by
  rw [val_main_v28_apply, val_main_v26_apply, val_main_v25_apply, val_main_v24_apply, val_main_v23_apply, idx_v23,
    v21_eq, v22_eq, val_main_v27_apply, val_main_v20_apply, val_main_v19_apply, val_main_cst_2_apply, uitofp_une]
  rfl

theorem idx_v30 : idx_main_v30 (idx_main_v31 (ix3 h i j)) = ix2 h i :=
  funext fun a => Fin.ext (by match a with | ⟨0, _⟩ => rfl | ⟨1, _⟩ => rfl)

theorem idx_v29 (k : Fin 2048) : idx_main_v29 (ix2 h i) k = ix3 h i k :=
  funext fun a => Fin.ext (by match a with | ⟨0, _⟩ => rfl | ⟨1, _⟩ => rfl | ⟨2, _⟩ => rfl)

/-- The softmax over the local pattern's stored entries. -/
theorem v32_eq : val_main_v32 (F := Ideal) x0 x2 x3 (ix3 h i j) = softAt (scoreAt x2 x3) x0 h i j := by
  rw [val_main_v32_apply, val_main_v31_apply, val_main_v30_apply, idx_v30, val_main_v29_apply, v28_eq]
  simp only [idx_v29, v28_eq]
  rfl
end

/-! ### The long-range pattern: masked logits, row maximum, shifted exponentials, softmax -/
section
variable (x1 : (⟨S8x2048x2048, .f32⟩ : BufTy).Contents (Elt Ideal)) (x2 : (⟨S8x2048x128, .f32⟩ : BufTy).Contents (Elt Ideal))
  (x3 : (⟨S8x2x128x1, .f32⟩ : BufTy).Contents (Elt Ideal)) (h : Fin 8) (i j : Fin 2048)

/-- The masked logit of the long-range pattern. -/
theorem v38_eq : val_main_v38 (F := Ideal) x1 x2 x3 (ix3 h i j) = logitAt (scoreAt x2 x3) x1 h i j := by
  rw [val_main_v38_apply, val_main_v37_apply, val_main_v36_apply, val_main_cst_7_apply, val_main_v35_apply,
    val_main_v34_apply, val_main_cst_6_apply, val_main_v33_apply, val_main_call1_v0_apply, val_main_cst_8_apply, v15_eq]
  exact select_une _ _

/-- Its row maximum. -/
theorem v39_eq : val_main_v39 (F := Ideal) x1 x2 x3 (ix2 h i) = rowMax (scoreAt x2 x3) x1 h i := by
  refine (rowmax_fold (val_main_v38 (F := Ideal) x1 x2 x3) h i).trans ?_
  exact congrArg (fun f => Finset.fold max negInf f (Finset.univ : Finset (Fin 2048))) (funext fun k => v38_eq x1 x2 x3 h i k)

theorem idx_v40 : idx_main_v40 (idx_main_v41 (ix3 h i j)) = ix2 h i :=
  funext fun a => Fin.ext (by match a with | ⟨0, _⟩ => rfl | ⟨1, _⟩ => rfl)

/-- The shifted exponential times the indicator. -/
theorem v45_eq : val_main_v45 (F := Ideal) x1 x2 x3 (ix3 h i j) = expAt (scoreAt x2 x3) x1 h i j := by
  rw [val_main_v45_apply, val_main_v43_apply, val_main_v42_apply, val_main_v41_apply, val_main_v40_apply, idx_v40,
    v38_eq, v39_eq, val_main_v44_apply, val_main_v37_apply, val_main_v36_apply, val_main_cst_7_apply, uitofp_une]
  rfl

theorem idx_v47 : idx_main_v47 (idx_main_v48 (ix3 h i j)) = ix2 h i :=
  funext fun a => Fin.ext (by match a with | ⟨0, _⟩ => rfl | ⟨1, _⟩ => rfl)

theorem idx_v46 (k : Fin 2048) : idx_main_v46 (ix2 h i) k = ix3 h i k :=
  funext fun a => Fin.ext (by match a with | ⟨0, _⟩ => rfl | ⟨1, _⟩ => rfl | ⟨2, _⟩ => rfl)

/-- The softmax over the long-range pattern's stored entries. -/
theorem v49_eq : val_main_v49 (F := Ideal) x1 x2 x3 (ix3 h i j) = softAt (scoreAt x2 x3) x1 h i j := by
  rw [val_main_v49_apply, val_main_v48_apply, val_main_v47_apply, idx_v47, val_main_v46_apply, v45_eq]
  simp only [idx_v46, v45_eq]
  rfl
end

/-- The reference's result, element by element, is half the long-range softmax plus half the local one. -/
theorem val_eq_refAt (x0 x1 : (⟨S8x2048x2048, .f32⟩ : BufTy).Contents (Elt Ideal)) (x2 : (⟨S8x2048x128, .f32⟩ : BufTy).Contents (Elt Ideal))
    (x3 : (⟨S8x2x128x1, .f32⟩ : BufTy).Contents (Elt Ideal)) (h : Fin 8) (i j : Fin 2048) :
    Cert.ReferenceIdeal.Read.val_main_v54 (F := Ideal) x0 x1 x2 x3 (ValueIdx.ix3 h i j)
      = Cert.SparseMix.refAt (Cert.SparseMix.scoreAt x2 x3) x0 x1 h i j := by
  rw [val_main_v54_apply, val_main_v51_apply, val_main_v50_apply, val_main_cst_11_apply, val_main_v53_apply, val_main_v52_apply,
    val_main_cst_12_apply, v49_eq, v32_eq]
  rfl

end Cert.ReferenceIdeal.RefValue

end
-- ==== Proof.Scores.lean ====
/-
  The scores array after the first region, entry by entry.

  Per head `h` the region reads the head's features `X[h]` (2048 nodes × 128 channels) and its two vectors `V[h]`
  (2 × 128), and writes `V[h] · X[h]ᵀ`, the contraction over the 128 channels, as the head's 2 × 2048 block of the
  scores array. So the array's entry at head `h`, vector `a`, node `n` is `Σ_k V[h,a,k,0] · X[h,n,k]`: the
  specification's `scoreAt`.

  The steps: the stored block at an index is that sum over the loaded blocks (`pay_apply`: the three reshapes read at
  an index, the product read as a sum over the contraction position, the operand indices axis by axis); grid point `t`
  works on head `t` (`idx_facts`), so a loaded block's entry is the array's entry at head `t` (`feat_block`,
  `vec_block`) and what point `t` writes back is block `t` of the scores (`flushed_eq`); the eight blocks tile the
  array (`mem_blk`, `scores_array`), which gives `scores_value`.
-/
import proofs.«133463_g19713899889134_cont_8to1_1390_10_alg».proof.Proof.Gen.KernelIdeal.Frame
import proofs.«133463_g19713899889134_cont_8to1_1390_10_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Scores

open Cert.KernelIdeal Cert.KernelIdeal.Gen Idealize.ShloMosaic Idealize.ShloMosaic.TcCoe Idealize.ShloMosaic.Pipeline Idealize.ShloMosaic.ValueIdx

/-! ## The contraction's operand indices, axis by axis

The product contracts axis 1 of the 2×128 vectors with axis 1 of the 2048×128 features: at the result's index
`(a, n)` and contraction position `k` the vectors are read at `(a, k)` and the features at `(n, k)`. -/

theorem lhs_axis0 (i : S2x2048.Idx) (q : dot_S2x128_S2048x128_S2x2048_1_1_0_0_n_n.contr.Idx) :
    (dot_S2x128_S2048x128_S2x2048_1_1_0_0_n_n.lhsIdx i q 0).val = (i 0).val := by
  unfold DotDims.lhsIdx
  rw [dif_neg (show ¬(0 : Fin S2x128.rank) ∈ dot_S2x128_S2048x128_S2x2048_1_1_0_0_n_n.lhsBatch by decide), dif_pos (show (0 : Fin S2x128.rank) ∈ dot_S2x128_S2048x128_S2x2048_1_1_0_0_n_n.lhsNonContracting by decide)]
  rfl
theorem lhs_axis1 (i : S2x2048.Idx) (q : dot_S2x128_S2048x128_S2x2048_1_1_0_0_n_n.contr.Idx) :
    (dot_S2x128_S2048x128_S2x2048_1_1_0_0_n_n.lhsIdx i q 1).val = (q ⟨0, by decide⟩).val :=
  dot_S2x128_S2048x128_S2x2048_1_1_0_0_n_n.lhsIdx_val_of_single rfl i q
theorem rhs_axis0 (i : S2x2048.Idx) (q : dot_S2x128_S2048x128_S2x2048_1_1_0_0_n_n.contr.Idx) :
    (dot_S2x128_S2048x128_S2x2048_1_1_0_0_n_n.rhsIdx i q 0).val = (i 1).val := by
  unfold DotDims.rhsIdx
  rw [dif_neg (show ¬(0 : Fin S2048x128.rank) ∈ dot_S2x128_S2048x128_S2x2048_1_1_0_0_n_n.rhsBatch by decide), dif_pos (show (0 : Fin S2048x128.rank) ∈ dot_S2x128_S2048x128_S2x2048_1_1_0_0_n_n.rhsNonContracting by decide)]
  rfl
theorem rhs_axis1 (i : S2x2048.Idx) (q : dot_S2x128_S2048x128_S2x2048_1_1_0_0_n_n.contr.Idx) :
    (dot_S2x128_S2048x128_S2x2048_1_1_0_0_n_n.rhsIdx i q 1).val = (q ⟨0, by decide⟩).val :=
  dot_S2x128_S2048x128_S2x2048_1_1_0_0_n_n.rhsIdx_val_of_single rfl i q

/-- The head's two vectors, a 1×2×128×1 block, cast to 2×128: entry `(a, k)` is the block's `(0, a, k, 0)`. -/
theorem cast_vectors {α : Type} (x : S1x2x128x1.Idx → α) (h : S1x2x128x1.ShapeCasts S2x128) (a : Fin 2) (k : Fin 128) :
    shapeCast S2x128 x h (ix2 a k) = x (ix4 (0 : Fin 1) a k (0 : Fin 1)) :=
  shapeCast_apply x h _ _ (by
    rw [Shape.rowMajor_val_four, Shape.rowMajor_val_two]
    show ((0 * 2 + a.val) * 128 + k.val) * 1 + 0 = a.val * 128 + k.val
    omega)

/-- THE PAYLOAD AT AN INDEX: the stored block's entry `(0, a, n)` is the contraction over the 128 channels of the
    head's vector `a` with node `n`'s features. -/
theorem pay_apply (x0 : Vec Ideal S1x2048x128 .f32) (x1 : Vec Ideal S1x2x128x1 .f32) (a : Fin 2) (n : Fin 2048) :
    k0_pay1 x0 x1 (ix3 (0 : Fin 1) a n)
      = ∑ k : Fin 128, x1 (ix4 (0 : Fin 1) a k (0 : Fin 1)) * x0 (ix3 (0 : Fin 1) n k) := by
  unfold k0_pay1
  rw [shapeCast_ab_1ab_apply]
  refine (Ideal.matmul_constant_zero_apply dot_S2x128_S2048x128_S2x2048_1_1_0_0_n_n none _ _ (ix2 a n)).trans ?_
  rw [← Equiv.sum_comp (contrEquiv1 dot_S2x128_S2048x128_S2x2048_1_1_0_0_n_n 128 rfl rfl).symm]
  refine Finset.sum_congr rfl fun k _ => ?_
  have hk := contrEquiv1_symm_val dot_S2x128_S2048x128_S2x2048_1_1_0_0_n_n 128 rfl rfl k
  have el : dot_S2x128_S2048x128_S2x2048_1_1_0_0_n_n.lhsIdx (ix2 a n) ((contrEquiv1 dot_S2x128_S2048x128_S2x2048_1_1_0_0_n_n 128 rfl rfl).symm k) = ix2 a k := funext fun b => Fin.ext (by
    match b with
    | ⟨0, _⟩ => exact lhs_axis0 _ _
    | ⟨1, _⟩ => exact (lhs_axis1 _ _).trans hk)
  have er : dot_S2x128_S2048x128_S2x2048_1_1_0_0_n_n.rhsIdx (ix2 a n) ((contrEquiv1 dot_S2x128_S2048x128_S2x2048_1_1_0_0_n_n 128 rfl rfl).symm k) = ix2 n k := funext fun b => Fin.ext (by
    match b with
    | ⟨0, _⟩ => exact rhs_axis0 _ _
    | ⟨1, _⟩ => exact (rhs_axis1 _ _).trans hk)
  rw [el, er, cast_vectors, shapeCast_1ab_ab_apply]

/-! ## Blocks

Grid point `t` works on head `t`: each window's block index is `(t, 0, …)`, so a block's entry at
`(0, …)` is the array's entry at `(t, …)`. -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the 8 grid points: every window's block index is `(t, 0, …)`. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- The head grid point `t` works on. -/
abbrev headOf (t : Fin cfg0.N) : Fin 8 := Fin.cast N_0 t

variable (V : (c : Dev nD) → (b : Ref sig .tc) → Buf (Elt Ideal) ((c : Thread nD τ).loc b))

/-- The features block at point `t` is head `t`'s features. -/
theorem feat_block (c : Dev nD) (t : Fin cfg0.N) (n : Fin 2048) (k : Fin 128) :
    (iblk0 V c 0 t : Vec Ideal S1x2048x128 .f32) (ix3 (0 : Fin 1) n k)
      = (V c main_arg2 : S8x2048x128.Idx → EReal) (ix3 (headOf t) n k) := by
  obtain ⟨e0, e1, e2, -⟩ := idx_facts t
  unfold iblk0
  rw [View.read_apply]
  show V c main_arg2 _ = V c main_arg2 _
  congr 1
  funext a
  apply Fin.ext
  match a with
  | ⟨0, _⟩ => show win0_0.index t (0 : Fin 3) * 1 + 1 * (0 : Fin 1).val = t.val; rw [e0]; simp
  | ⟨1, _⟩ => show win0_0.index t (1 : Fin 3) * 2048 + 1 * n.val = n.val; rw [e1]; omega
  | ⟨2, _⟩ => show win0_0.index t (2 : Fin 3) * 128 + 1 * k.val = k.val; rw [e2]; omega

/-- The vectors block at point `t` is head `t`'s two vectors. -/
theorem vec_block (c : Dev nD) (t : Fin cfg0.N) (a : Fin 2) (k : Fin 128) :
    (iblk0 V c 1 t : Vec Ideal S1x2x128x1 .f32) (ix4 (0 : Fin 1) a k (0 : Fin 1))
      = (V c main_arg3 : S8x2x128x1.Idx → EReal) (ix4 (headOf t) a k (0 : Fin 1)) := by
  obtain ⟨-, -, -, e0, e1, e2, e3, -⟩ := idx_facts t
  unfold iblk0
  rw [View.read_apply]
  show V c main_arg3 _ = V c main_arg3 _
  congr 1
  funext b
  apply Fin.ext
  match b with
  | ⟨0, _⟩ => show win0_1.index t (0 : Fin 4) * 1 + 1 * (0 : Fin 1).val = t.val; rw [e0]; simp
  | ⟨1, _⟩ => show win0_1.index t (1 : Fin 4) * 2 + 1 * a.val = a.val; rw [e1]; omega
  | ⟨2, _⟩ => show win0_1.index t (2 : Fin 4) * 128 + 1 * k.val = k.val; rw [e2]; omega
  | ⟨3, _⟩ => show win0_1.index t (3 : Fin 4) * 1 + 1 * (0 : Fin 1).val = (0 : Fin 1).val; rw [e3]; simp

/-! ## From blocks to the array -/

/-- The scores array as one function of the features and the vectors, index by index. -/
abbrev scoresOf (X : Cert.SparseMix.Feat) (W : Cert.SparseMix.Wts) : S8x2x2048.Idx → EReal :=
  fun y => Cert.SparseMix.scoreAt X W (y 0) (y 1) (y 2)

/-- WHAT POINT `t` WRITES BACK is block `t` of the scores of the features and vectors as the region finds them. -/
theorem flushed_eq (c : Dev nD) (t : Fin cfg0.N) :
    (dat0 (F := Ideal) V c).flushed 2 t
      = ((cfg0.win 2).blk t).view.read (Elt Ideal) (scoresOf (V c main_arg2) (V c main_arg3)) := by
  show (cfg0.win 2).cut (grid0.coords t) ((dat0 V c).after 2 t) = _
  rw [after0_2]
  unfold out0_2
  rw [View.canon_unit_zero hz3]
  simp only [View.ld_unit_zero (S := S1x2048x128) hz3, View.ld_unit_zero (S := S1x2x128x1) hz4]
  obtain ⟨-, -, -, -, -, -, -, e0, e1, e2⟩ := idx_facts t
  funext j
  have h0 : (j 0).val < 1 := (j 0).isLt
  have h1 : (j 1).val < 2 := (j 1).isLt
  have h2 : (j 2).val < 2048 := (j 2).isLt
  have hj : (cfg0.win 2).xinj (grid0.coords t) j = ix3 (0 : Fin 1) (⟨(j 1).val, h1⟩ : Fin 2) (⟨(j 2).val, h2⟩ : Fin 2048) := by
    funext a; apply Fin.ext
    match a with
    | ⟨0, _⟩ => show (j 0).val = 0; omega
    | ⟨1, _⟩ => rfl
    | ⟨2, _⟩ => rfl
  have q0 : (((cfg0.win 2).blk t).view.emb j 0 : Fin 8) = headOf t :=
    Fin.ext (by show win0_2.index t (0 : Fin 3) * 1 + 1 * (j 0).val = t.val; rw [e0]; omega)
  have q1 : (((cfg0.win 2).blk t).view.emb j 1 : Fin 2) = ⟨(j 1).val, h1⟩ :=
    Fin.ext (by show win0_2.index t (1 : Fin 3) * 2 + 1 * (j 1).val = (j 1).val; rw [e1]; omega)
  have q2 : (((cfg0.win 2).blk t).view.emb j 2 : Fin 2048) = ⟨(j 2).val, h2⟩ :=
    Fin.ext (by show win0_2.index t (2 : Fin 3) * 2048 + 1 * (j 2).val = (j 2).val; rw [e2]; omega)
  show k0_pay1 (iblk0 V c 0 t) (iblk0 V c 1 t) ((cfg0.win 2).xinj (grid0.coords t) j)
    = Cert.SparseMix.scoreAt (V c main_arg2) (V c main_arg3) (((cfg0.win 2).blk t).view.emb j 0) (((cfg0.win 2).blk t).view.emb j 1) (((cfg0.win 2).blk t).view.emb j 2)
  rw [hj, q0, q1, q2]
  refine (pay_apply (iblk0 V c 0 t) (iblk0 V c 1 t) ⟨(j 1).val, h1⟩ ⟨(j 2).val, h2⟩).trans ?_
  unfold Cert.SparseMix.scoreAt
  exact Finset.sum_congr rfl fun k _ => by rw [feat_block V c t _ k, vec_block V c t _ k]; rfl

/-- An index of the array is in point `t`'s block iff each coordinate is in the block's range on its axis. -/
theorem mem_blk (t : Fin cfg0.N) (i : S8x2x2048.Idx) :
    i ∈ ((cfg0.win 2).blk t).view.set ↔ ∀ a : Fin 3, win0_2.index t a * S1x2x2048.size a ≤ (i a).val ∧ (i a).val < win0_2.index t a * S1x2x2048.size a + S1x2x2048.size a := by
  show i ∈ ((View.whole main_v0).slice (win0_2.rect t)).set ↔ _
  rw [View.set_slice_whole, Rect.mem_set_unit]
  exact Iff.rfl

/-- THE ARRAY after the region: the eight heads' blocks tile it (head `h`'s is point `h`'s), so it holds the scores. -/
theorem scores_array (c : Dev nD) :
    (dat0 (F := Ideal) V c).arrAt 2 cfg0.N = scoresOf (V c main_arg2) (V c main_arg3) :=
  (dat0 (F := Ideal) V c).arrAt_eq_of_cover 2 _ (fun t _ => flushed_eq V c t) fun i => by
    have hi0 : (i 0).val < 8 := (i 0).isLt
    have hi1 : (i 1).val < 2 := (i 1).isLt
    have hi2 : (i 2).val < 2048 := (i 2).isLt
    obtain ⟨t, ht⟩ : ∃ t : Fin cfg0.N, t.val = (i 0).val := ⟨⟨(i 0).val, by rw [show cfg0.N = 8 from N_0]; exact hi0⟩, rfl⟩
    obtain ⟨-, -, -, -, -, -, -, e0, e1, e2⟩ := idx_facts t
    refine ⟨t, flush0_2 t, ?_⟩
    rw [mem_blk]
    intro a
    match a with
    | ⟨0, _⟩ => show win0_2.index t (0 : Fin 3) * 1 ≤ (i 0).val ∧ (i 0).val < win0_2.index t (0 : Fin 3) * 1 + 1; rw [e0]; omega
    | ⟨1, _⟩ => show win0_2.index t (1 : Fin 3) * 2 ≤ (i 1).val ∧ (i 1).val < win0_2.index t (1 : Fin 3) * 2 + 2; rw [e1]; omega
    | ⟨2, _⟩ => show win0_2.index t (2 : Fin 3) * 2048 ≤ (i 2).val ∧ (i 2).val < win0_2.index t (2 : Fin 3) * 2048 + 2048; rw [e2]; omega

/-- The scores array after the region, entry by entry: head `h`, vector `a`, node `n` holds the contraction over the
    128 channels of the head's vector `a` with the node's features. -/
theorem scores_value (V : (c : Dev nD) → (b : Ref sig .tc) → Buf (Elt Ideal) ((c : Thread nD τ).loc b)) (c : Dev nD)
    (h : Fin 8) (a : Fin 2) (n : Fin 2048) :
    (Gen.dat0 (F := Ideal) V c).arrAt 2 cfg0.N (ValueIdx.ix3 h a n)
      = Cert.SparseMix.scoreAt (V c main_arg2) (V c main_arg3) h a n :=
  congrFun (scores_array V c) (ix3 h a n)

end Cert.KernelIdeal.Scores

end
-- ==== Proof.AttPayload.lean ====
/-
  The second pallas_call's stored value, read at an index.

  At one grid point the body holds a slice `v2` of 512 row scores, the 2048 column scores `v4`, and the two patterns'
  blocks `v13`, `v16` of 512 rows by 2048 columns. It forms the weight `w r j = e^{σ(v2 r + v4 j)}`, the two masked
  weights `w·v13` and `w·v16`, their row sums, and stores `(w·v13)·(½ / Σ w·v13) + (w·v16)·(½ / Σ w·v16)`.
  The layout operations around the arithmetic (casts that add or drop unit axes, a column broadcast along its row,
  a row broadcast down the rows) only rename indices.
-/
import proofs.«133463_g19713899889134_cont_8to1_1390_10_alg».proof.Proof.Gen.KernelIdeal.Skeleton
import proofs.«133463_g19713899889134_cont_8to1_1390_10_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Att

open Cert.KernelIdeal Cert.KernelIdeal.Gen Idealize.ShloMosaic Idealize.ShloMosaic.ValueIdx Cert.SparseMix

variable {α : Type}

/-- A `[1, 1, n]` array cast to `[n]` reads, at `r`, the operand at `(0, 0, r)`. -/
theorem cast_11n_n {n : ℕ} (x : (⟨3, ![1, 1, n]⟩ : Shape).Idx → α) (h : (⟨3, ![1, 1, n]⟩ : Shape).ShapeCasts ⟨1, ![n]⟩)
    (r : Fin n) : shapeCast ⟨1, ![n]⟩ x h (ix1 r) = x (ix3 (0 : Fin 1) (0 : Fin 1) r) :=
  shapeCast_apply x h _ _ (by
    rw [Shape.rowMajor_val_three, Shape.rowMajor_val_one]
    show (0 * 1 + 0) * n + r.val = r.val
    omega)

/-- An `[n]` array cast to the column `[n, 1]` reads, at `(r, u)`, the operand at `r`. -/
theorem cast_n_n1 {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(p, c)`, the column's entry `p`. -/
theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The weight of row `r` of the block against column `j`: `e` to the sigmoid of the sum of the two scores. -/
def wgt (v2 : Vec Ideal S1x1x512 .f32) (v4 : Vec Ideal S1x1x2048 .f32) (r : Fin 512) (j : Fin 2048) : EReal :=
  Ideal.exp (Ideal.logistic (v2 (ix3 (0 : Fin 1) (0 : Fin 1) r) + v4 (ix3 (0 : Fin 1) (0 : Fin 1) j)))

/-- The row sum of the masked weights, as the lane reduction computes it. -/
theorem rowsum_apply (x : FVec Ideal S512x2048 .f32) (hφ : FKind.Formats .f32)
    (hacc : (0x00000000#32 : BitVec 32) = 0x00000000#32) (r : Fin 512) :
    multiReduction .add [1] S512 x 0x00000000#32 reduces_S512x2048_S512 hφ hacc (ix1 r)
      = ∑ j' : Fin 2048, x (ix2 r j') := by
  refine (Ideal.multiReduction_add_single x 0x00000000#32 reduces_S512x2048_S512 hφ hacc (ix1 r)).trans ?_
  refine Finset.sum_congr rfl fun k _ => congrArg x ?_
  funext c
  apply Fin.ext
  match c with
  | ⟨0, _⟩ => rfl
  | ⟨1, _⟩ => rfl

theorem k1_pay1_apply (v2 : Vec Ideal S1x1x512 .f32) (v4 : Vec Ideal S1x1x2048 .f32) (v13 v16 : Vec Ideal S1x512x2048 .f32)
    (r : Fin 512) (j : Fin 2048) :
    k1_pay1 (F := Ideal) v2 v4 v13 v16 (ix3 (0 : Fin 1) r j)
      = (wgt v2 v4 r j * v13 (ix3 (0 : Fin 1) r j)) * Ideal.div half (∑ j' : Fin 2048, wgt v2 v4 r j' * v13 (ix3 (0 : Fin 1) r j'))
        + (wgt v2 v4 r j * v16 (ix3 (0 : Fin 1) r j)) * Ideal.div half (∑ j' : Fin 2048, wgt v2 v4 r j' * v16 (ix3 (0 : Fin 1) r j')) := by
  unfold k1_pay1
  dsimp only
  rw [shapeCast_ab_1ab_apply]
  simp only [addf_apply, mulf_apply, divf_apply, bcast_a1_ab, cast_n_n1, broadcast_apply,
    shapeCast_1ab_ab_apply, exp, logistic, broadcastTo_1b_ab_apply, shapeCast_a_1a_apply, cast_11n_n,
    Ideal.exp_def, Ideal.logistic_def, Ideal.ofBits_def]
  rw [rowsum_apply _ k1_pay1._proof_2 k1_pay1._proof_3 r, rowsum_apply _ k1_pay1._proof_2 k1_pay1._proof_3 r]
  simp only [addf_apply, mulf_apply, bcast_a1_ab, cast_n_n1,
    shapeCast_1ab_ab_apply, exp, logistic, broadcastTo_1b_ab_apply, shapeCast_a_1a_apply, cast_11n_n,
    Ideal.exp_def, Ideal.logistic_def]
  rfl

end Cert.KernelIdeal.Att

end
-- ==== Proof.AttValue.lean ====
/-
  The second pallas_call's result array.

  Grid point `t = (h, q)` of the 8 × 4 grid holds head `h`'s two score rows (a `1 × 2 × 2048` block of the scores
  array), and rows `512 q … 512 q + 511` of head `h` of each pattern (a `1 × 512 × 2048` block). Its body reads the
  512 row scores at columns `512 q + r` of score row 0, all 2048 entries of score row 1, forms the fused attention of
  `Spec.lean` for those rows and stores it whole; the point's write-back puts it at the same rows of head `h` of the
  result. Every index `(h, i, j)` of the result lies in the block of the point `(h, i / 512)`, so the array ends as
  the fused attention `attAt` of the scores array the call was entered with and the two patterns, everywhere.
-/
import proofs.«133463_g19713899889134_cont_8to1_1390_10_alg».proof.Proof.Gen.KernelIdeal.Frame
import proofs.«133463_g19713899889134_cont_8to1_1390_10_alg».proof.Proof.AttPayload

set_option maxRecDepth 16384

noncomputable section

namespace Cert.KernelIdeal.Att

open Cert.KernelIdeal Cert.KernelIdeal.Gen Idealize.ShloMosaic Idealize.ShloMosaic.TcCoe Idealize.ShloMosaic.Tactic Idealize.ShloMosaic.ValueIdx Cert.SparseMix
open Idealize.ShloMosaic.Pipeline (Dat Cfg Window)

theorem hz3 : (![0, 0, 0] : Fin 3 → Nat) = fun _ => 0 := funext fun a => by fin_cases a <;> rfl

/-- What the body leaves in the output's staging buffer: its one store's value, of the two slices it loads of the
    scores block and of the two pattern blocks whole. -/
theorem out_att (c : Dev nD) (i : grid1.Coords) (a2 : Memref sig .tc .vmem S1x2x2048 .f32) (h2 : a2.IsWhole)
    (a3 : Memref sig .tc .vmem S1x512x2048 .f32) (h3 : a3.IsWhole) (a4 : Memref sig .tc .vmem S1x512x2048 .f32) (h4 : a4.IsWhole)
    (a5 : Memref sig .tc .vmem S1x512x2048 .f32) (h5 : a5.IsWhole)
    (x0 : Vec Ideal S1x2x2048 .f32) (x1 x2 : Vec Ideal S1x512x2048 .f32) :
    out1_A_3 (F := Ideal) c i a2 h2 a3 h3 a4 h4 a5 h5 x0 x1 x2
      = k1_pay1 (F := Ideal) (View.ld x0 (Rect.unit (s := S1x2x2048) (k1_off1 i) S1x1x512.size (Facts₀.k1_off1_inb i)))
          (View.ld x0 (Rect.unit (s := S1x2x2048) ![0, 1, 0] S1x1x2048.size Facts₀.inb_S1x2x2048_S1x1x2048_0_1_0)) x1 x2 := by
  unfold out1_A_3
  rw [View.read_writes_eq_canon _ _ _ (cover1_A_3 c i a2 h2 a3 h3 a4 h4 a5 h5 x0 x1 x2)]
  unfold kernelRun1_A
  dsimp only
  rw [View.canon_unit_zero hz3]
  simp only [View.readAt_eq_ld, h2.read_unread, h3.read_unread, h4.read_unread, View.ld_unit_zero (S := S1x512x2048) hz3]

/-! ## The point's inputs, read at an index -/

/-- The printed index maps, decided over the 32 grid points: the scores window is at block `(h, 0, 0)`, the pattern and
    result windows at block `(h, q, 0)`, and the body's first load starts at column `512 q` of score row 0; `h < 8`, `q < 4`. -/
theorem idx_facts : ∀ t : Fin cfg1.N,
    win1_0.index t (1 : Fin 3) = 0 ∧ win1_0.index t (2 : Fin 3) = 0
    ∧ win1_1.index t (0 : Fin 3) = win1_0.index t (0 : Fin 3) ∧ win1_1.index t (2 : Fin 3) = 0
    ∧ win1_2.index t (0 : Fin 3) = win1_0.index t (0 : Fin 3) ∧ win1_2.index t (1 : Fin 3) = win1_1.index t (1 : Fin 3)
    ∧ win1_2.index t (2 : Fin 3) = 0
    ∧ win1_3.index t (0 : Fin 3) = win1_0.index t (0 : Fin 3) ∧ win1_3.index t (1 : Fin 3) = win1_1.index t (1 : Fin 3)
    ∧ win1_3.index t (2 : Fin 3) = 0
    ∧ k1_off1 (grid1.coords t) = ![0, 0, win1_1.index t (1 : Fin 3) * 512]
    ∧ win1_0.index t (0 : Fin 3) < 8 ∧ win1_1.index t (1 : Fin 3) < 4 :=
  (by decide +kernel : ∀ t : Fin grid1.N, _)

/-- Every pair of a head and a quarter of the rows is some point's. -/
theorem idx_onto : ∀ (h : Fin 8) (q : Fin 4), ∃ t : Fin cfg1.N,
    win1_0.index t (0 : Fin 3) = h.val ∧ win1_1.index t (1 : Fin 3) = q.val :=
  (by decide +kernel : ∀ (h : Fin 8) (q : Fin 4), ∃ t : Fin grid1.N, _)

/-- The head and the quarter of the rows grid point `t` works on. -/
abbrev headOf (t : Fin cfg1.N) : Fin 8 := ⟨win1_0.index t (0 : Fin 3), (idx_facts t).2.2.2.2.2.2.2.2.2.2.2.1⟩
abbrev quarterOf (t : Fin cfg1.N) : Fin 4 := ⟨win1_1.index t (1 : Fin 3), (idx_facts t).2.2.2.2.2.2.2.2.2.2.2.2⟩
/-- Row `r` of quarter `q`. -/
abbrev rowOf (q : Fin 4) (r : Fin 512) : Fin 2048 := ⟨q.val * 512 + r.val, by have := q.isLt; have := r.isLt; omega⟩

variable (V : (c : Dev nD) → (b : Ref sig .tc) → Buf (Elt Ideal) ((c : Thread nD τ).loc b))

/-- The scores block at point `t` is head `h`'s two score rows. -/
theorem scores_block (c : Dev nD) (t : Fin cfg1.N) (a : Fin 2) (n : Fin 2048) :
    (iblk1 V c 0 t : Vec Ideal S1x2x2048 .f32) (ix3 (0 : Fin 1) a n)
      = (V c main_v0 : S8x2x2048.Idx → EReal) (ix3 (headOf t) a n) := by
  obtain ⟨e1, e2, -⟩ := idx_facts t
  unfold iblk1
  rw [View.read_apply]
  show V c main_v0 _ = V c main_v0 _
  congr 1
  funext b
  apply Fin.ext
  match b with
  | ⟨0, _⟩ => show win1_0.index t (0 : Fin 3) * 1 + 1 * (0 : Fin 1).val = win1_0.index t (0 : Fin 3); simp
  | ⟨1, _⟩ => show win1_0.index t (1 : Fin 3) * 2 + 1 * a.val = a.val; rw [e1]; omega
  | ⟨2, _⟩ => show win1_0.index t (2 : Fin 3) * 2048 + 1 * n.val = n.val; rw [e2]; omega

/-- The local pattern's block at point `t` is rows `512 q …` of head `h`. -/
theorem loc_block (c : Dev nD) (t : Fin cfg1.N) (r : Fin 512) (j : Fin 2048) :
    (iblk1 V c 1 t : Vec Ideal S1x512x2048 .f32) (ix3 (0 : Fin 1) r j)
      = (V c main_arg0 : S8x2048x2048.Idx → EReal) (ix3 (headOf t) (rowOf (quarterOf t) r) j) := by
  obtain ⟨-, -, e0, e2, -⟩ := idx_facts t
  unfold iblk1
  rw [View.read_apply]
  show V c main_arg0 _ = V c main_arg0 _
  congr 1
  funext b
  apply Fin.ext
  match b with
  | ⟨0, _⟩ => show win1_1.index t (0 : Fin 3) * 1 + 1 * (0 : Fin 1).val = win1_0.index t (0 : Fin 3); rw [e0]; simp
  | ⟨1, _⟩ => show win1_1.index t (1 : Fin 3) * 512 + 1 * r.val = win1_1.index t (1 : Fin 3) * 512 + r.val; omega
  | ⟨2, _⟩ => show win1_1.index t (2 : Fin 3) * 2048 + 1 * j.val = j.val; rw [e2]; omega

/-- The long-range pattern's block at point `t` is the same rows of head `h`. -/
theorem lon_block (c : Dev nD) (t : Fin cfg1.N) (r : Fin 512) (j : Fin 2048) :
    (iblk1 V c 2 t : Vec Ideal S1x512x2048 .f32) (ix3 (0 : Fin 1) r j)
      = (V c main_arg1 : S8x2048x2048.Idx → EReal) (ix3 (headOf t) (rowOf (quarterOf t) r) j) := by
  obtain ⟨-, -, -, -, e0, e1, e2, -⟩ := idx_facts t
  unfold iblk1
  rw [View.read_apply]
  show V c main_arg1 _ = V c main_arg1 _
  congr 1
  funext b
  apply Fin.ext
  match b with
  | ⟨0, _⟩ => show win1_2.index t (0 : Fin 3) * 1 + 1 * (0 : Fin 1).val = win1_0.index t (0 : Fin 3); rw [e0]; simp
  | ⟨1, _⟩ => show win1_2.index t (1 : Fin 3) * 512 + 1 * r.val = win1_1.index t (1 : Fin 3) * 512 + r.val; rw [e1]; omega
  | ⟨2, _⟩ => show win1_2.index t (2 : Fin 3) * 2048 + 1 * j.val = j.val; rw [e2]; omega

/-! ## The stored value at a point is the fused attention of the arrays -/

/-- Over a point's inputs as variables: if the scores block is head `h`'s two score rows of `f` and the pattern blocks
    are rows `512 q …` of head `h` of `loc` and `lon`, and the first load starts at column `512 q`, the stored
    value at row `r`, column `j` of the block is the fused attention at `(h, 512 q + r, j)`. -/
theorem att_point (f : S8x2x2048.Idx → EReal) (loc lon : Pat) (h : Fin 8) (q : Fin 4)
    (x0 : Vec Ideal S1x2x2048 .f32) (x1 x2 : Vec Ideal S1x512x2048 .f32)
    (hx0 : ∀ (a : Fin 2) (n : Fin 2048), x0 (ix3 (0 : Fin 1) a n) = f (ix3 h a n))
    (hx1 : ∀ (r : Fin 512) (j : Fin 2048), x1 (ix3 (0 : Fin 1) r j) = loc (ix3 h (rowOf q r) j))
    (hx2 : ∀ (r : Fin 512) (j : Fin 2048), x2 (ix3 (0 : Fin 1) r j) = lon (ix3 h (rowOf q r) j))
    (off : Fin 3 → Nat) (hoff : off = ![0, 0, q.val * 512]) (inb : ∀ a, off a + S1x1x512.size a ≤ S1x2x2048.size a)
    (r : Fin 512) (j : Fin 2048) :
    k1_pay1 (F := Ideal) (View.ld x0 (Rect.unit (s := S1x2x2048) off S1x1x512.size inb))
        (View.ld x0 (Rect.unit (s := S1x2x2048) ![0, 1, 0] S1x1x2048.size Facts₀.inb_S1x2x2048_S1x1x2048_0_1_0)) x1 x2
        (ix3 (0 : Fin 1) r j)
      = attAt (fun h a n => f (ix3 h a n)) loc lon h (rowOf q r) j := by
  subst hoff
  have l0 : View.ld x0 (Rect.unit (s := S1x2x2048) ![0, 0, q.val * 512] S1x1x512.size inb) (ix3 (0 : Fin 1) (0 : Fin 1) r)
      = f (ix3 h (0 : Fin 2) (rowOf q r)) := by
    rw [← hx0]
    show x0 _ = x0 _
    congr 1
    funext b
    apply Fin.ext
    match b with
    | ⟨0, _⟩ => rfl
    | ⟨1, _⟩ => rfl
    | ⟨2, _⟩ => show q.val * 512 + 1 * r.val = q.val * 512 + r.val; omega
  have l1 : ∀ j' : Fin 2048, View.ld x0 (Rect.unit (s := S1x2x2048) ![0, 1, 0] S1x1x2048.size Facts₀.inb_S1x2x2048_S1x1x2048_0_1_0)
      (ix3 (0 : Fin 1) (0 : Fin 1) j') = f (ix3 h (1 : Fin 2) j') := by
    intro j'
    rw [← hx0]
    show x0 _ = x0 _
    congr 1
    funext b
    apply Fin.ext
    match b with
    | ⟨0, _⟩ => rfl
    | ⟨1, _⟩ => rfl
    | ⟨2, _⟩ => show 0 + 1 * j'.val = j'.val; omega
  rw [k1_pay1_apply]
  unfold attAt shareAt wAt wgt
  simp only [l0, l1, hx1, hx2]

/-! ## From blocks to the array -/

/-- The result array as one function of the scores array and the two patterns, index by index. -/
abbrev attOf (f : S8x2x2048.Idx → EReal) (loc lon : Pat) : S8x2048x2048.Idx → EReal :=
  fun y => attAt (fun h a n => f (ix3 h a n)) loc lon (y 0) (y 1) (y 2)

/-- WHAT POINT `t` WRITES BACK is block `t` of the fused attention of the arrays as the call finds them. -/
theorem flushed_att (c : Dev nD) (t : Fin cfg1.N) :
    (dat1 (F := Ideal) V c).flushed 3 t
      = ((cfg1.win 3).blk t).view.read (Elt Ideal) (attOf (V c main_v0) (V c main_arg0) (V c main_arg1)) := by
  show (cfg1.win 3).cut (grid1.coords t) ((dat1 V c).after 3 t) = _
  rw [after1_3]
  unfold outsAt1
  rw [out_att]
  obtain ⟨-, -, -, -, -, -, -, e0, e1, e2, eoff, -, -⟩ := idx_facts t
  funext y
  have h0 : (y 0).val < 1 := (y 0).isLt
  have h1 : (y 1).val < 512 := (y 1).isLt
  have h2 : (y 2).val < 2048 := (y 2).isLt
  have hy : (cfg1.win 3).xinj (grid1.coords t) y = ix3 (0 : Fin 1) (⟨(y 1).val, h1⟩ : Fin 512) (⟨(y 2).val, h2⟩ : Fin 2048) := by
    funext a; apply Fin.ext
    match a with
    | ⟨0, _⟩ => show (y 0).val = 0; omega
    | ⟨1, _⟩ => rfl
    | ⟨2, _⟩ => rfl
  have q0 : (((cfg1.win 3).blk t).view.emb y 0 : Fin 8) = headOf t :=
    Fin.ext (by show win1_3.index t (0 : Fin 3) * 1 + 1 * (y 0).val = win1_0.index t (0 : Fin 3); rw [e0]; omega)
  have q1 : (((cfg1.win 3).blk t).view.emb y 1 : Fin 2048) = rowOf (quarterOf t) ⟨(y 1).val, h1⟩ :=
    Fin.ext (by show win1_3.index t (1 : Fin 3) * 512 + 1 * (y 1).val = win1_1.index t (1 : Fin 3) * 512 + (y 1).val; rw [e1]; omega)
  have q2 : (((cfg1.win 3).blk t).view.emb y 2 : Fin 2048) = ⟨(y 2).val, h2⟩ :=
    Fin.ext (by show win1_3.index t (2 : Fin 3) * 2048 + 1 * (y 2).val = (y 2).val; rw [e2]; omega)
  show k1_pay1 (F := Ideal)
      (View.ld (iblk1 V c 0 t) (Rect.unit (s := S1x2x2048) (k1_off1 (grid1.coords t)) S1x1x512.size (Facts₀.k1_off1_inb (grid1.coords t))))
      (View.ld (iblk1 V c 0 t) (Rect.unit (s := S1x2x2048) ![0, 1, 0] S1x1x2048.size Facts₀.inb_S1x2x2048_S1x1x2048_0_1_0))
      (iblk1 V c 1 t) (iblk1 V c 2 t) ((cfg1.win 3).xinj (grid1.coords t) y)
    = attAt (fun h a n => V c main_v0 (ix3 h a n)) (V c main_arg0) (V c main_arg1)
        (((cfg1.win 3).blk t).view.emb y 0) (((cfg1.win 3).blk t).view.emb y 1) (((cfg1.win 3).blk t).view.emb y 2)
  rw [hy, q0, q1, q2]
  exact att_point (V c main_v0) (V c main_arg0) (V c main_arg1) (headOf t) (quarterOf t)
    (iblk1 V c 0 t) (iblk1 V c 1 t) (iblk1 V c 2 t) (scores_block V c t) (loc_block V c t) (lon_block V c t)
    (k1_off1 (grid1.coords t)) eoff (Facts₀.k1_off1_inb (grid1.coords t)) ⟨(y 1).val, h1⟩ ⟨(y 2).val, h2⟩

/-- An index of the result is in point `t`'s block iff each coordinate is in the block's range on its axis. -/
theorem mem_blk (t : Fin cfg1.N) (i : S8x2048x2048.Idx) :
    i ∈ ((cfg1.win 3).blk t).view.set ↔ ∀ a : Fin 3, win1_3.index t a * S1x512x2048.size a ≤ (i a).val ∧ (i a).val < win1_3.index t a * S1x512x2048.size a + S1x512x2048.size a := by
  show i ∈ ((View.whole main_v1).slice (win1_3.rect t)).set ↔ _
  rw [View.set_slice_whole, Rect.mem_set_unit]
  exact Iff.rfl

/-- THE ARRAY after the call: the 32 points' blocks tile it (index `(h, i, j)` is in the block of the point
    `(h, i / 512)`), so it holds the fused attention everywhere. -/
theorem att_array (c : Dev nD) :
    (dat1 (F := Ideal) V c).arrAt 3 cfg1.N = attOf (V c main_v0) (V c main_arg0) (V c main_arg1) :=
  (dat1 (F := Ideal) V c).arrAt_eq_of_cover 3 _ (fun t _ => flushed_att V c t) fun i => by
    have hi0 : (i 0).val < 8 := (i 0).isLt
    have hi1 : (i 1).val < 2048 := (i 1).isLt
    have hi2 : (i 2).val < 2048 := (i 2).isLt
    obtain ⟨t, ht0, ht1⟩ := idx_onto ⟨(i 0).val, hi0⟩ ⟨(i 1).val / 512, by omega⟩
    have ht0' : win1_0.index t (0 : Fin 3) = (i 0).val := ht0
    have ht1' : win1_1.index t (1 : Fin 3) = (i 1).val / 512 := ht1
    obtain ⟨-, -, -, -, -, -, -, e0, e1, e2, -⟩ := idx_facts t
    refine ⟨t, flush1_3 t, ?_⟩
    rw [mem_blk]
    intro a
    match a with
    | ⟨0, _⟩ => show win1_3.index t (0 : Fin 3) * 1 ≤ (i 0).val ∧ (i 0).val < win1_3.index t (0 : Fin 3) * 1 + 1; rw [e0, ht0']; omega
    | ⟨1, _⟩ => show win1_3.index t (1 : Fin 3) * 512 ≤ (i 1).val ∧ (i 1).val < win1_3.index t (1 : Fin 3) * 512 + 512; rw [e1, ht1']; omega
    | ⟨2, _⟩ => show win1_3.index t (2 : Fin 3) * 2048 ≤ (i 2).val ∧ (i 2).val < win1_3.index t (2 : Fin 3) * 2048 + 2048; rw [e2]; omega

/-- The result array after the call, entry by entry. -/
theorem att_value (c : Dev nD) (h : Fin 8) (i j : Fin 2048) :
    (dat1 (F := Ideal) V c).arrAt 3 cfg1.N (ix3 h i j)
      = attAt (fun h a n => V c main_v0 (ix3 h a n)) (V c main_arg0) (V c main_arg1) h i j :=
  congrFun (att_array V c) (ix3 h i j)

end Cert.KernelIdeal.Att

end
-- ==== Proof.Bridge.lean ====
/-
  The two programs compute one function.

  The fused program's result array ends at the fused attention `attAt` of the scores its first pallas_call left
  (the contraction `scoreAt` of the features with the two vectors of each head) and the two patterns; the masked
  program's result is `refAt` of the same scores and patterns, read stage by stage. Under the precondition — the
  features and the vectors are real numbers, each pattern is 0/1 valued and every row of it has a stored entry —
  the scores are real numbers and `refAt = attAt` (`RowLaw.lean`).
-/
import proofs.«133463_g19713899889134_cont_8to1_1390_10_alg».proof.Defs
import proofs.«133463_g19713899889134_cont_8to1_1390_10_alg».proof.Proof.Gen.Kernel.Frame
import proofs.«133463_g19713899889134_cont_8to1_1390_10_alg».proof.Proof.Gen.KernelIdeal.Frame
import proofs.«133463_g19713899889134_cont_8to1_1390_10_alg».proof.Proof.Gen.ReferenceIdeal.Run
import proofs.«133463_g19713899889134_cont_8to1_1390_10_alg».proof.Proof.Gen.ReferenceIdeal.Read
import proofs.«133463_g19713899889134_cont_8to1_1390_10_alg».proof.Proof.Gen.Pre_finite_inputs
import proofs.«133463_g19713899889134_cont_8to1_1390_10_alg».proof.Proof.Spec
import proofs.«133463_g19713899889134_cont_8to1_1390_10_alg».proof.Proof.RowLaw
import proofs.«133463_g19713899889134_cont_8to1_1390_10_alg».proof.Proof.PreRead
import proofs.«133463_g19713899889134_cont_8to1_1390_10_alg».proof.Proof.RefValue
import proofs.«133463_g19713899889134_cont_8to1_1390_10_alg».proof.Proof.Scores
import proofs.«133463_g19713899889134_cont_8to1_1390_10_alg».proof.Proof.AttValue
import proofs.«133463_g19713899889134_cont_8to1_1390_10_alg».proof.Proof.KernelRun

noncomputable section

namespace Cert.Bridge

open Idealize.ShloMosaic Idealize.ShloMosaic.TcCoe Idealize.SL.Sem Idealize.ShloMosaic.ValueIdx Cert.SparseMix

/-- A contraction of real features with real vectors is a real number. -/
theorem scoreAt_real (X : Feat) (W : Wts) (hX : ∀ i, ∃ r : ℝ, X i = (r : EReal)) (hW : ∀ i, ∃ r : ℝ, W i = (r : EReal))
    (h : Fin 8) (a : Fin 2) (n : Fin 2048) : ∃ r : ℝ, scoreAt X W h a n = (r : EReal) := by
  choose x hx using hX
  choose w hw using hW
  refine ⟨∑ k : Fin 128, w (ix4 h a k (0 : Fin 1)) * x (ix3 h n k), ?_⟩
  unfold scoreAt
  rw [coe_sum]
  exact Finset.sum_congr rfl fun k _ => by rw [hw, hx, EReal.coe_mul]

/-- The common result, as a function of the four argument arrays: the fused attention of the scores and the patterns. -/
abbrev result (loc lon : Pat) (X : Feat) (W : Wts) : Pat :=
  fun y => attAt (scoreAt X W) loc lon (y 0) (y 1) (y 2)

section Kernel
open Cert.KernelIdeal Cert.KernelIdeal.Gen

/-- The fused program's result array at the end of its run. -/
theorem kernel_value (m : (ℓ : Loc nD τ sig) → Buf (Elt Ideal) ℓ) (ρ : Dev nD → PrngReg) (c : Dev nD) :
    W2 m ρ c (Proc.devRef .tc main_v1)
      = result (m ((c.tc : Thread nD τ).loc main_arg0)) (m ((c.tc : Thread nD τ).loc main_arg1))
          (m ((c.tc : Thread nD τ).loc main_arg2)) (m ((c.tc : Thread nD τ).loc main_arg3)) := by
  rw [Cert.KernelIdeal.Run.W2_result, Cert.KernelIdeal.Att.att_array (V1 m ρ) c, Cert.KernelIdeal.Run.V1_scores,
    Cert.KernelIdeal.Run.V1_arg0, Cert.KernelIdeal.Run.V1_arg1, Cert.KernelIdeal.Scores.scores_array (V0 m ρ) c]

end Kernel

section Reference
open Cert.ReferenceIdeal Cert.ReferenceIdeal.Gen

/-- The masked program's result term, under the facts the precondition gives. -/
theorem reference_value (x0 x1 : (⟨S8x2048x2048, .f32⟩ : BufTy).Contents (Elt Ideal)) (x2 : (⟨S8x2048x128, .f32⟩ : BufTy).Contents (Elt Ideal))
    (x3 : (⟨S8x2x128x1, .f32⟩ : BufTy).Contents (Elt Ideal))
    (hX : ∀ i, ∃ r : ℝ, x2 i = (r : EReal)) (hW : ∀ i, ∃ r : ℝ, x3 i = (r : EReal))
    (hloc : ∀ i, x0 i = 0 ∨ x0 i = 1) (hlon : ∀ i, x1 i = 0 ∨ x1 i = 1)
    (hlocRow : ∀ (h : Fin 8) (i : Fin 2048), ∃ j : Fin 2048, x0 (ix3 h i j) ≠ 0)
    (hlonRow : ∀ (h : Fin 8) (i : Fin 2048), ∃ j : Fin 2048, x1 (ix3 h i j) ≠ 0) :
    Cert.ReferenceIdeal.Read.val_main_v54 (F := Ideal) x0 x1 x2 x3 = result x0 x1 x2 x3 := by
  funext y
  obtain ⟨h, i, j, rfl⟩ : ∃ (h : Fin 8) (i j : Fin 2048), y = ix3 h i j := ⟨y 0, y 1, y 2, eq_ix3 y⟩
  rw [Cert.ReferenceIdeal.RefValue.val_eq_refAt]
  exact refAt_eq_attAt (scoreAt x2 x3) x0 x1 (scoreAt_real x2 x3 hX hW) (fun h i j => hloc _) (fun h i j => hlon _)
    hlocRow hlonRow h i j

end Reference

end Cert.Bridge

end
-- ==== Proof.lean ====
/-
  The certificate's proof: the fused two-call graph attention against the masked, max-shifted reference.

  Each head's affinities are `σ(f1_i + f2_j)` with `f1`, `f2` two contractions of the node features; for each of two
  0/1 adjacency patterns the attention is the softmax of the affinities over the pattern's stored entries of a row, and
  the result is half the local pattern's softmax plus half the long-range one's. The fused form computes each share as
  `(e^σ · P) · (½ / Σ e^σ · P)` in one pass; the reference masks with a large negative number, subtracts the row
  maximum, exponentiates, multiplies by the pattern's indicator and divides by the row sum. Over the extended reals the
  two agree when the features and vectors are real numbers, each pattern is 0/1 valued and every row of each pattern
  has a stored entry (without one the reference's quotient is 0/0); these are the precondition. `Spec.lean` states both
  forms, `RowLaw.lean` proves them equal, `PreRead.lean` reads the facts out of the precondition, `Scores.lean` and
  `AttValue.lean` read the fused program's two arrays, `RefValue.lean` reads the reference stage by stage,
  `Bridge.lean` joins them.

  The three frames: the two kernel programs' are the generated frames; the reference's is its generated run with the
  result dropped. No rewrite was applied when the kernel was idealized, so that claim is trivial.
-/
import proofs.«133463_g19713899889134_cont_8to1_1390_10_alg».proof.Defs
import proofs.«133463_g19713899889134_cont_8to1_1390_10_alg».proof.Proof.Gen.Kernel
import proofs.«133463_g19713899889134_cont_8to1_1390_10_alg».proof.Proof.Gen.Kernel.Skeleton
import proofs.«133463_g19713899889134_cont_8to1_1390_10_alg».proof.Proof.Gen.Kernel.Launch
import proofs.«133463_g19713899889134_cont_8to1_1390_10_alg».proof.Proof.Gen.Kernel.Points
import proofs.«133463_g19713899889134_cont_8to1_1390_10_alg».proof.Proof.Gen.Kernel.Frame
import proofs.«133463_g19713899889134_cont_8to1_1390_10_alg».proof.Proof.Gen.KernelIdeal
import proofs.«133463_g19713899889134_cont_8to1_1390_10_alg».proof.Proof.Gen.KernelIdeal.Skeleton
import proofs.«133463_g19713899889134_cont_8to1_1390_10_alg».proof.Proof.Gen.KernelIdeal.Launch
import proofs.«133463_g19713899889134_cont_8to1_1390_10_alg».proof.Proof.Gen.KernelIdeal.Points
import proofs.«133463_g19713899889134_cont_8to1_1390_10_alg».proof.Proof.Gen.KernelIdeal.Frame
import proofs.«133463_g19713899889134_cont_8to1_1390_10_alg».proof.Proof.Gen.ReferenceIdeal
import proofs.«133463_g19713899889134_cont_8to1_1390_10_alg».proof.Proof.Gen.ReferenceIdeal.Run
import proofs.«133463_g19713899889134_cont_8to1_1390_10_alg».proof.Proof.Gen.ReferenceIdeal.Read
import proofs.«133463_g19713899889134_cont_8to1_1390_10_alg».proof.Proof.Gen.Pre_finite_inputs
import proofs.«133463_g19713899889134_cont_8to1_1390_10_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Bridge.result` of the four argument arrays: the fused program by its
    two calls' arrays read back, the reference by its stages read at an index and the row law. -/
theorem algebraic : Cert.algebraic_KernelIdeal_ReferenceIdeal := by
  intro m ρ m' ρ' hpre hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Bridge.kernel_value m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨hX, hW, hloc, hlon, hlocRow, hlonRow⟩ := Cert.PreRead.of_pre _ _ _ _ (hpre c)
    rw [Cert.ReferenceIdeal.Read.val_main_v54_eq, (hagree c).1, (hagree c).2.1, (hagree c).2.2.1, (hagree c).2.2.2]
    exact Cert.Bridge.reference_value _ _ _ _ hX hW hloc hlon hlocRow hlonRow

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
